-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S1x1 : Shape := ⟨2, ![1, 1]⟩
abbrev S1024x128 : Shape := ⟨2, ![1024, 128]⟩
abbrev S128x1024 : Shape := ⟨2, ![128, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x1, .f32⟩
  | .local _ .vmem, ⟨7, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1_S1x1_0_0 : ∀ a, (![0, 0] : Fin 2 → Nat) a + S1x1.size a ≤ S1x1.size a
  h_S1x1 : 0 < S1x1.numel
  bitsLt_bf16_f32 : FTy.bits .bf16 < FTy.bits .f32
  transposes_S1024x128_p1_0_S128x1024 : S1024x128.Transposes [1, 0] S128x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  reducesTo_S8192x8192_S_d0_1 : S8192x8192.ReducesTo [0, 1] S_
  h_S_ : 0 < S_.numel
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.K.Points.lean ====
/-
  The grid of the one pallas_call, read point by point: 64 points, row-major over (i, j) ∈ 8 × 8. The body's two
  branches are decided by the point alone: the log-ratio scratch is refilled where j = 0 (the points ≡ 0 mod 8), the
  1 × 1 accumulator is reset at the first point only. Also the staging memrefs the pipeline passes the body at a
  point, and the scratch operand.
-/
import proofs.«135756_j53927609369065_1_alg».proof.Proof.Gen.Kernel.Launch
import proofs.«135756_j53927609369065_1_alg».proof.Proof.Gen.Kernel.Skeleton
import proofs.«135756_j53927609369065_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The refill condition (the body's first branch): the column coordinate is 0. -/
abbrev condJ (i : grid0.Coords) : Prop :=
  (Scalar.cmpi .ne (Scalar.extui (Scalar.cmpi .eq (BitVec.ofNat 32 (i 1).val) 0#32)) 0#32) = 1#1
/-- The reset condition (the body's second branch): both coordinates are 0. -/
abbrev condIJ (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

theorem hcondJ : ∀ t : Fin cfg0.N, condJ (grid0.coords t) ↔ t.val % 8 = 0 :=
  (by decide +kernel : ∀ t : Fin grid0.N, condJ (grid0.coords t) ↔ t.val % 8 = 0)
theorem hcondIJ : ∀ t : Fin cfg0.N, condIJ (grid0.coords t) ↔ t.val = 0 :=
  (by decide +kernel : ∀ t : Fin grid0.N, condIJ (grid0.coords t) ↔ t.val = 0)

/-- No window is idle anywhere. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-- Each window's current staging memref at point `t`, and that it is a whole buffer. -/
abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
/-- The scratch operand: the log-ratio of the current row block, kept from the row's first point on. -/
abbrev scM : Memref sig .tc .vmem S1024x128 .f32 := Memref.whole cc0_scratch0

end Cert.Kernel.Hand

end
-- ==== Proof.K.Runs.lean ====
/-
  The kernel body run once per control case, on any whole staging memrefs. The body has two branches, both decided by
  the grid point: where the column coordinate is 0 it refills the scratch with the log-ratio of the two row blocks it
  was handed; at the very first point it also zeroes the 1 × 1 accumulator; at every point it then adds the tile's sum,
  computed from the scratch and the third block, into the accumulator. Three cases meet the grid: the first point
  (both branches), the other points of column 0 (refill only), and the rest (neither). Each run hands back the
  input blocks untouched and names what the stores left as lists of pieces (last store first).
-/
import proofs.«135756_j53927609369065_1_alg».proof.Proof.K.Points

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Neither branch taken (the column coordinate is not 0): the scratch is read, not written; the accumulator is read
    and stored once. -/
noncomputable def runRest (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : ¬condJ i) (hIJ : ¬condIJ i)
    (x0 x1 x2 : Vec F S1024x128 .f32) (o : Vec F S1x1 .f32) (s : Vec F S1024x128 .f32) :
    { L5 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare s
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ owns (c : Thread nD τ) arg6 fullShare s) -∗ K ⟨⟩))
          ⊢ wp frame (wpE (defs₀ (F := F)) Variants.none c none) E (cc0__kernel i arg2 harg2 arg3 harg3 arg4 harg4 arg5 harg5 arg6 harg6) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf5; obtain rfl := harg6.eq_unread hf6
    sl_exec (disch := first | exact hJ | exact hIJ)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; isplitr; · ipureintro; exact harg6.read_unread _
    iexact H6

/-- The refill alone (column 0 of a later row): the scratch is loaded (its old contents, unused), stored whole with the
    log-ratio, and read back; the accumulator is read and stored once. -/
noncomputable def runRefill (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : ¬condIJ i)
    (x0 x1 x2 : Vec F S1024x128 .f32) (o : Vec F S1x1 .f32) :
    Σ' (L5 : List (View.Piece (Elt F) S1x1 .f32)), { L6 : List (View.Piece (Elt F) S1024x128 .f32) //
      ∀ (s : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare s
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__kernel i arg2 harg2 arg3 harg3 arg4 harg4 arg5 harg5 arg6 harg6) K } := by
  refine ⟨?_, ?_, fun s E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf5; obtain rfl := harg6.eq_unread hf6
    sl_exec (disch := first | exact hJ | exact hIJ)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact H6

/-- The first point (both branches): the scratch refilled as above; the accumulator loaded (contents unused), zeroed,
    read back and stored with the first tile's sum added. -/
noncomputable def runFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : condIJ i)
    (x0 x1 x2 : Vec F S1024x128 .f32) :
    Σ' (L5 : List (View.Piece (Elt F) S1x1 .f32)), { L6 : List (View.Piece (Elt F) S1024x128 .f32) //
      ∀ (o : Vec F S1x1 .f32) (s : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare s
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__kernel i arg2 harg2 arg3 harg3 arg4 harg4 arg5 harg5 arg6 harg6) K } := by
  refine ⟨?_, ?_, fun o s E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf5; obtain rfl := harg6.eq_unread hf6
    sl_exec (disch := first | exact hJ | exact hIJ)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact H6

end Cert.Kernel.Hand

end
-- ==== Proof.K.Data.lean ====
/-
  What the 1 × 1 accumulator and the log-ratio scratch hold after each grid point, and the pipeline's proof data.

  After the first point the accumulator holds what the reset-then-add left and the scratch the first row block's
  log-ratio; after a later point of column 0 the scratch is refilled from that point's blocks and the accumulator is the
  previous one plus the tile; after any other point the scratch is unchanged and the accumulator again the previous one
  plus the tile. The three input windows' staging buffers hold their blocks at every point (windows 1 and 2 stage blocks
  of ONE array, the target, each under half of its share); the accumulator's buffer is written back only after the last
  point, so at every later point the body finds in it what the point before left.
-/
import proofs.«135756_j53927609369065_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- The TensorCore buffers when the region is entered: @main runs nothing before it. -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What each case's stores leave -/

/-- A view of the accumulator's shape and one of the scratch's, through which the stores' pieces are read back (the
    choice of view does not matter where the pieces cover). -/
abbrev VAcc : View sig .tc .vmem S1x1 .f32 := (Memref.whole cc0_stg3_0 : Memref sig .tc .vmem S1x1 .f32).view
abbrev VScr : View sig .tc .vmem S1024x128 .f32 := scM.view

def accRest (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : ¬condJ i) (hIJ : ¬condIJ i)
    (x0 x1 x2 : Vec F S1024x128 .f32) (o : Vec F S1x1 .f32) (s : Vec F S1024x128 .f32) : Vec F S1x1 .f32 :=
  VAcc.read (Elt F) (VAcc.writes (Elt F) VAcc.junk (runRest c i arg2 harg2 arg3 harg3 arg4 harg4 arg5 harg5 arg6 harg6 hJ hIJ x0 x1 x2 o s).1)
theorem coverRest (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : ¬condJ i) (hIJ : ¬condIJ i)
    (x0 x1 x2 : Vec F S1024x128 .f32) (o : Vec F S1x1 .f32) (s : Vec F S1024x128 .f32) (y : S1x1.Idx) :
    ∃ pc ∈ (runRest c i arg2 harg2 arg3 harg3 arg4 harg4 arg5 harg5 arg6 harg6 hJ hIJ x0 x1 x2 o s).1, y ∈ pc.1.set :=
  View.cover_of_tiledL (runRest c i arg2 harg2 arg3 harg3 arg4 harg4 arg5 harg5 arg6 harg6 hJ hIJ x0 x1 x2 o s).1 S1x1.size (by sl_kernel_rfl) y

def accRefill (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : ¬condIJ i)
    (x0 x1 x2 : Vec F S1024x128 .f32) (o : Vec F S1x1 .f32) : Vec F S1x1 .f32 :=
  VAcc.read (Elt F) (VAcc.writes (Elt F) VAcc.junk (runRefill c i arg2 harg2 arg3 harg3 arg4 harg4 arg5 harg5 arg6 harg6 hJ hIJ x0 x1 x2 o).1)
def scrRefill (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : ¬condIJ i)
    (x0 x1 x2 : Vec F S1024x128 .f32) (o : Vec F S1x1 .f32) : Vec F S1024x128 .f32 :=
  VScr.read (Elt F) (VScr.writes (Elt F) VScr.junk (runRefill c i arg2 harg2 arg3 harg3 arg4 harg4 arg5 harg5 arg6 harg6 hJ hIJ x0 x1 x2 o).2.1)
theorem coverRefillAcc (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : ¬condIJ i)
    (x0 x1 x2 : Vec F S1024x128 .f32) (o : Vec F S1x1 .f32) (y : S1x1.Idx) :
    ∃ pc ∈ (runRefill c i arg2 harg2 arg3 harg3 arg4 harg4 arg5 harg5 arg6 harg6 hJ hIJ x0 x1 x2 o).1, y ∈ pc.1.set :=
  View.cover_of_tiledL (runRefill c i arg2 harg2 arg3 harg3 arg4 harg4 arg5 harg5 arg6 harg6 hJ hIJ x0 x1 x2 o).1 S1x1.size (by sl_kernel_rfl) y
theorem coverRefillScr (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : ¬condIJ i)
    (x0 x1 x2 : Vec F S1024x128 .f32) (o : Vec F S1x1 .f32) (y : S1024x128.Idx) :
    ∃ pc ∈ (runRefill c i arg2 harg2 arg3 harg3 arg4 harg4 arg5 harg5 arg6 harg6 hJ hIJ x0 x1 x2 o).2.1, y ∈ pc.1.set :=
  View.cover_of_tiledL (runRefill c i arg2 harg2 arg3 harg3 arg4 harg4 arg5 harg5 arg6 harg6 hJ hIJ x0 x1 x2 o).2.1 S1024x128.size (by sl_kernel_rfl) y

def accFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : condIJ i)
    (x0 x1 x2 : Vec F S1024x128 .f32) : Vec F S1x1 .f32 :=
  VAcc.read (Elt F) (VAcc.writes (Elt F) VAcc.junk (runFirst c i arg2 harg2 arg3 harg3 arg4 harg4 arg5 harg5 arg6 harg6 hJ hIJ x0 x1 x2).1)
def scrFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : condIJ i)
    (x0 x1 x2 : Vec F S1024x128 .f32) : Vec F S1024x128 .f32 :=
  VScr.read (Elt F) (VScr.writes (Elt F) VScr.junk (runFirst c i arg2 harg2 arg3 harg3 arg4 harg4 arg5 harg5 arg6 harg6 hJ hIJ x0 x1 x2).2.1)
theorem coverFirstAcc (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : condIJ i)
    (x0 x1 x2 : Vec F S1024x128 .f32) (y : S1x1.Idx) :
    ∃ pc ∈ (runFirst c i arg2 harg2 arg3 harg3 arg4 harg4 arg5 harg5 arg6 harg6 hJ hIJ x0 x1 x2).1, y ∈ pc.1.set :=
  View.cover_of_tiledL (runFirst c i arg2 harg2 arg3 harg3 arg4 harg4 arg5 harg5 arg6 harg6 hJ hIJ x0 x1 x2).1 S1x1.size (by sl_kernel_rfl) y
theorem coverFirstScr (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : condIJ i)
    (x0 x1 x2 : Vec F S1024x128 .f32) (y : S1024x128.Idx) :
    ∃ pc ∈ (runFirst c i arg2 harg2 arg3 harg3 arg4 harg4 arg5 harg5 arg6 harg6 hJ hIJ x0 x1 x2).2.1, y ∈ pc.1.set :=
  View.cover_of_tiledL (runFirst c i arg2 harg2 arg3 harg3 arg4 harg4 arg5 harg5 arg6 harg6 hJ hIJ x0 x1 x2).2.1 S1024x128.size (by sl_kernel_rfl) y

/-! ## Point by point -/

theorem N64 : cfg0.N = 64 := N_0

/-- The accumulator's staging buffer and the scratch after the body at position `n`. -/
def outsAt (c : Dev nD) : (n : ℕ) → n < cfg0.N → Vec F S1x1 .f32 × Vec F S1024x128 .f32
  | 0, hn =>
    (accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcondJ ⟨0, hn⟩).mpr (Nat.zero_mod _)) ((hcondIJ ⟨0, hn⟩).mpr rfl) (iblk m c 0 ⟨0, hn⟩) (iblk m c 1 ⟨0, hn⟩) (iblk m c 2 ⟨0, hn⟩),
     scrFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcondJ ⟨0, hn⟩).mpr (Nat.zero_mod _)) ((hcondIJ ⟨0, hn⟩).mpr rfl) (iblk m c 0 ⟨0, hn⟩) (iblk m c 1 ⟨0, hn⟩) (iblk m c 2 ⟨0, hn⟩))
  | n + 1, hn =>
    if h0 : (n + 1) % 8 = 0 then
      (accRefill c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcondJ ⟨n + 1, hn⟩).mpr h0) (fun h => Nat.succ_ne_zero n ((hcondIJ ⟨n + 1, hn⟩).mp h)) (iblk m c 0 ⟨n + 1, hn⟩) (iblk m c 1 ⟨n + 1, hn⟩) (iblk m c 2 ⟨n + 1, hn⟩) (outsAt c n (Nat.lt_of_succ_lt hn)).1,
       scrRefill c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcondJ ⟨n + 1, hn⟩).mpr h0) (fun h => Nat.succ_ne_zero n ((hcondIJ ⟨n + 1, hn⟩).mp h)) (iblk m c 0 ⟨n + 1, hn⟩) (iblk m c 1 ⟨n + 1, hn⟩) (iblk m c 2 ⟨n + 1, hn⟩) (outsAt c n (Nat.lt_of_succ_lt hn)).1)
    else
      (accRest c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondJ ⟨n + 1, hn⟩).mp h)) (fun h => Nat.succ_ne_zero n ((hcondIJ ⟨n + 1, hn⟩).mp h)) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2,
       (outsAt c n (Nat.lt_of_succ_lt hn)).2)

theorem outsAt_first (c : Dev nD) (t : Fin cfg0.N) (hz : t.val = 0) :
    outsAt m c t.val t.isLt =
      (accFirst c (grid0.coords t) (ms0 t) (hs0 t) (ms1 t) (hs1 t) (ms2 t) (hs2 t) (ms3 t) (hs3 t) scM (Memref.isWhole_whole _) ((hcondJ t).mpr (by rw [hz])) ((hcondIJ t).mpr hz) (iblk m c 0 t) (iblk m c 1 t) (iblk m c 2 t),
       scrFirst c (grid0.coords t) (ms0 t) (hs0 t) (ms1 t) (hs1 t) (ms2 t) (hs2 t) (ms3 t) (hs3 t) scM (Memref.isWhole_whole _) ((hcondJ t).mpr (by rw [hz])) ((hcondIJ t).mpr hz) (iblk m c 0 t) (iblk m c 1 t) (iblk m c 2 t)) := by
  obtain ⟨n, hn⟩ := t
  cases n with
  | zero => rfl
  | succ n => exact absurd hz (Nat.succ_ne_zero n)

theorem outsAt_refill (c : Dev nD) (t : Fin cfg0.N) (hz : t.val ≠ 0) (h0 : t.val % 8 = 0) :
    outsAt m c t.val t.isLt =
      (accRefill c (grid0.coords t) (ms0 t) (hs0 t) (ms1 t) (hs1 t) (ms2 t) (hs2 t) (ms3 t) (hs3 t) scM (Memref.isWhole_whole _) ((hcondJ t).mpr h0) (fun h => hz ((hcondIJ t).mp h)) (iblk m c 0 t) (iblk m c 1 t) (iblk m c 2 t) (outsAt m c (t.val - 1) (Nat.lt_of_le_of_lt (Nat.sub_le _ _) t.isLt)).1,
       scrRefill c (grid0.coords t) (ms0 t) (hs0 t) (ms1 t) (hs1 t) (ms2 t) (hs2 t) (ms3 t) (hs3 t) scM (Memref.isWhole_whole _) ((hcondJ t).mpr h0) (fun h => hz ((hcondIJ t).mp h)) (iblk m c 0 t) (iblk m c 1 t) (iblk m c 2 t) (outsAt m c (t.val - 1) (Nat.lt_of_le_of_lt (Nat.sub_le _ _) t.isLt)).1) := by
  obtain ⟨n, hn⟩ := t
  cases n with
  | zero => exact absurd rfl hz
  | succ n => exact (dif_pos h0).trans rfl

theorem outsAt_rest (c : Dev nD) (t : Fin cfg0.N) (hz : t.val ≠ 0) (h0 : ¬t.val % 8 = 0) :
    outsAt m c t.val t.isLt =
      (accRest c (grid0.coords t) (ms0 t) (hs0 t) (ms1 t) (hs1 t) (ms2 t) (hs2 t) (ms3 t) (hs3 t) scM (Memref.isWhole_whole _) (fun h => h0 ((hcondJ t).mp h)) (fun h => hz ((hcondIJ t).mp h)) (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2,
       (outsAt m c (t.val - 1) (Nat.lt_of_le_of_lt (Nat.sub_le _ _) t.isLt)).2) := by
  obtain ⟨n, hn⟩ := t
  cases n with
  | zero => exact absurd rfl hz
  | succ n => exact (dif_neg h0).trans rfl

/-! ## The region invariant: the scratch, carried -/

/-- Before the first point the scratch holds anything; before a later point what the point before left. Beside it the
    generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## The proof data -/

/-- Arrays as the region finds them; each input's buffer left at its block; the accumulator's at `outsAt`; the two
    windows on the target array hold it under the two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
/-- At a later point the accumulator's buffer holds what the point before left: it is written back after the last
    point only. -/
theorem before3 (c : Dev nD) (t : Fin cfg0.N) (hz : t.val ≠ 0) (d) :
    (dats m 0 c).before 3 t d = (outsAt m c (t.val - 1) (Nat.lt_of_le_of_lt (Nat.sub_le _ _) t.isLt)).1 := by
  have hN : t.val < 64 := lt_of_lt_of_eq t.isLt N64
  rw [Dat.before_out_kept _ 3 rfl t hz (Bool.eq_false_iff.mpr fun h => by have := (flush0_3 _).mp h; dsimp only at this; omega)
    (fun _ => rfl) (fun _ _ => rfl)]
  dsimp only [dats]

end Cert.Kernel.Hand

end
-- ==== Proof.K.Body.lean ====
/-
  The body obligation: at every grid point the kernel body, handed the invariant (the scratch at what the point before
  left), the three input blocks and the accumulator's buffer at what the point before left, runs to the invariant of the
  next point, the blocks in place and the accumulator's buffer at this point's contents. By cases on the point: the
  first, another point of column 0, any other.
-/
import proofs.«135756_j53927609369065_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  have hN : t.val < 64 := lt_of_lt_of_eq t.isLt N64
  by_cases hz : t.val = 0
  · rw [outsAt_first m c t hz]
    unfold accFirst scrFirst; (try dsimp only)
    rw [PhiS_castSucc m c t, PhiS_zero m c _ _ hz, PhiA_eq]
    iintro ⟨⟨⟨%s, HS⟩, Hg⟩, Ho, ⟨%d0, H0⟩, ⟨%d1, H1⟩, ⟨%d2, H2⟩, ⟨%d3, H3⟩⟩
    iapply ((runFirst c (grid0.coords t) _ _ _ _ _ _ _ _ _ _ ((hcondJ t).mpr (by rw [hz])) ((hcondIJ t).mpr hz) (iblk m c 0 t) (iblk m c 1 t) (iblk m c 2 t)).2.2 _ _ Set.univ _)
    isplitl [H0]; · iexact H0
    isplitl [H1]; · iexact H1
    isplitl [H2]; · iexact H2
    isplitl [H3]; · iexact H3
    isplitl [HS]; · iexact HS
    iintro ⟨H0, H1, H2, ⟨%e3, H3⟩, ⟨%es, HS⟩⟩
    isplitl [HS Hg]
    · isplitl [HS]
      · unfold owns; iexists _; isplitr
        swap; · iexact HS
        ipureintro; exact View.read_writes_of_cover _ _ _ _ _ (coverFirstScr c _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirstAcc c _ _ _ _ _ _ _ _ _ _ _ _ _ _ _ _)
  · simp only [before3 m c t hz]
    rw [PhiS_castSucc m c t, PhiS_pos m c _ _ hz]
    by_cases h0 : t.val % 8 = 0
    · rw [outsAt_refill m c t hz h0]
      unfold accRefill scrRefill; (try dsimp only)
      iintro ⟨⟨HS, Hg⟩, Ho, ⟨%d0, H0⟩, ⟨%d1, H1⟩, ⟨%d2, H2⟩, ⟨%d3, H3⟩⟩
      iapply ((runRefill c (grid0.coords t) _ _ _ _ _ _ _ _ _ _ ((hcondJ t).mpr h0) (fun h => hz ((hcondIJ t).mp h)) (iblk m c 0 t) (iblk m c 1 t) (iblk m c 2 t) (outsAt m c (t.val - 1) (Nat.lt_of_le_of_lt (Nat.sub_le _ _) t.isLt)).1).2.2 (outsAt m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverRefillScr c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverRefillAcc c _ _ _ _ _ _ _ _ _ _ _ _ _ _ _ _ _)
    · rw [outsAt_rest m c t hz h0]
      unfold accRest; (try dsimp only)
      iintro ⟨⟨HS, Hg⟩, Ho, ⟨%d0, H0⟩, ⟨%d1, H1⟩, ⟨%d2, H2⟩, ⟨%d3, H3⟩⟩
      iapply ((runRest c (grid0.coords t) _ _ _ _ _ _ _ _ _ _ (fun h => h0 ((hcondJ t).mp h)) (fun h => hz ((hcondIJ t).mp h)) (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2).2 Set.univ _)
      isplitl [H0]; · iexact H0
      isplitl [H1]; · iexact H1
      isplitl [H2]; · iexact H2
      isplitl [H3]; · iexact H3
      isplitl [HS]; · iexact HS
      iintro ⟨H0, H1, H2, ⟨%e3, H3⟩, HS⟩
      isplitl [HS Hg]
      · isplitl [HS]; · iexact HS
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverRest c _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back, the scratch's contents forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N64; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

end Cert.Kernel.Hand

end
-- ==== Proof.K.Launch.lean ====
/-
  The launch. The kernel is handed the target array through two windows, so the region is entered with that array's
  full share split in two halves, one per window, and left with the halves joined again; the source array and the
  1 × 1 result are held whole. After the region @main reshapes the 1 × 1 result to a scalar, divides it by 2^26 and adds
  it to 1e-4: five host operations over buffers no window stages, run from the region's exit contents. The run ends
  with both argument arrays as launched and the scalar result at those five operations' value of the accumulator's
  last contents.
-/
import proofs.«135756_j53927609369065_1_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' shares at the region's boundary -/

/-- The three buffers behind the four windows. -/
theorem arrImage : Finset.univ.image (Pipeline.arrRef spec0) = {main_arg0, main_arg1, main_v0} := by decide

theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
  unfold Pipeline.arrBufs
  rw [arrImage, BI.bigSep_insert (by decide), BI.bigSep_insert (by decide), BI.bigSep_singleton]
  rfl

theorem arrays_eq4 (c : Dev nD) (W : (b : Ref sig .tc) → Buf (Elt F) ((c : Thread nD τ).loc b))
    (A : (w : Fin cfg0.W) → Buf (Elt F) ((cfg0.win w).arr.view.loc (c : Thread nD τ)))
    (hA : ∀ w, A w = W (Pipeline.arrRef spec0 w)) :
    ((dats m 0 c).arrays A : sProp 𝕄)
      = iprop((((c : Thread nD τ).loc main_arg0) ↦{fullShare} W main_arg0) ∗ (((c : Thread nD τ).loc main_arg1) ↦{fullShare.left} W main_arg1)
          ∗ (((c : Thread nD τ).loc main_arg1) ↦{fullShare.right} W main_arg1) ∗ (((c : Thread nD τ).loc main_v0) ↦{fullShare} W main_v0)) := by
  unfold Dat.arrays
  rw [bigSep_W0]
  (try rw [(arr_whole0 0).set_eq_univ]); (try rw [(arr_whole0 1).set_eq_univ]); (try rw [(arr_whole0 2).set_eq_univ]); (try rw [(arr_whole0 3).set_eq_univ])
  rw [show (dats m 0 c).share 0 = fullShare from rfl, show (dats m 0 c).share 1 = fullShare.left from rfl,
    show (dats m 0 c).share 2 = fullShare.right from rfl, show (dats m 0 c).share 3 = fullShare from rfl]
  rw [hA 0, hA 1, hA 2, hA 3]

/-- The buffers behind the windows, each whole at the full share at contents `W`, are the pipeline's arrays at the
    same contents: the target's full share is the two halves windows 1 and 2 hold. -/
theorem arrBufs_arrays (c : Dev nD) (W : (b : Ref sig .tc) → Buf (Elt F) ((c : Thread nD τ).loc b))
    (A : (w : Fin cfg0.W) → Buf (Elt F) ((cfg0.win w).arr.view.loc (c : Thread nD τ)))
    (hA : ∀ w, A w = W (Pipeline.arrRef spec0 w)) :
    (Pipeline.arrBufs spec0 c W : sProp 𝕄) ⊣⊢ (dats m 0 c).arrays A := by
  rw [arrBufs_eq, arrays_eq4 m c W A hA]
  constructor
  · iintro ⟨H0, H1, H3⟩
    ihave H12 := (pointsTo_share (PosShare.mem_left_op_right fullShare)).1 $$ H1
    icases H12 with ⟨H1, H2⟩
    isplitl [H0]; · iexact H0
    isplitl [H1]; · iexact H1
    isplitl [H2]; · iexact H2
    iexact H3
  · iintro ⟨H0, H1, H2, H3⟩
    isplitl [H0]; · iexact H0
    isplitl [H1 H2]
    · iapply (pointsTo_share (PosShare.mem_left_op_right fullShare)).2
      isplitl [H1]; · iexact H1
      iexact H2
    iexact H3

/-- A core's unscoped buffers are the buffers behind the windows and the rest. -/
theorem unscopedBufs_split' (c : Dev nD) (W : (b : Ref sig .tc) → Buf (Elt F) ((c : Thread nD τ).loc b)) :
    (unscopedBufs c W : sProp 𝕄) = iprop(Pipeline.arrBufs spec0 c W ∗ Pipeline.unscopedRest spec0 c W) := by
  classical
  have hA : Finset.univ.image (Pipeline.arrRef spec0) ⊆ Finset.univ.filter fun b : Ref sig .tc => ¬ b.isScoped := by decide
  unfold unscopedBufs Pipeline.unscopedRest Pipeline.arrBufs
  rw [BI.bigSep_sdiff_split hA]
  rfl

/-! ## @main around the region -/

theorem hostOps1_fresh : (hostOps1 : List (HloOp τ sig (Elt F))).Forall fun op => op.fresh = ∅ := by
  simp only [List.Forall]; repeat' constructor

/-- @main is the region continued by the five host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The TensorCore buffers at the region's exit: as launched, but for the 1 × 1 result, which holds the accumulator's
    last contents. -/
def Wexit (c : Dev nD) : Valuation τ sig (Elt F) :=
  Function.update (fun b => m (c, b)) (Proc.devRef .tc main_v0) ((dats m 0 c).arrAt 3 cfg0.N)

theorem Wexit_v0 (c : Dev nD) : Wexit m c (Proc.devRef .tc main_v0) = (dats m 0 c).arrAt 3 cfg0.N := by
  unfold Wexit; exact Function.update_self ..

theorem Wexit_of_ne (c : Dev nD) (b : Ref sig .tc) (hb : b ≠ main_v0) : Wexit m c (Proc.devRef .tc b) = m ((c : Thread nD τ).loc b) := by
  unfold Wexit
  exact Function.update_of_ne (fun e => hb (Proc.devRef_injective (τ := τ) _ e)) ..

/-- The five operations write neither argument array nor the 1 × 1 result. -/
theorem tail_keeps (b : Ref sig .tc) (hb : b = main_arg0 ∨ b = main_arg1 ∨ b = main_v0) :
    ∀ op ∈ (hostOps1 : List (HloOp τ sig (Elt F))), Proc.devRef .tc b ∉ op.writes := by
  intro op hop
  simp only [hostOps1, List.mem_cons, List.mem_nil_iff, or_false] at hop
  rcases hb with rfl | rfl | rfl <;> rcases hop with rfl | rfl | rfl | rfl | rfl <;>
    simp only [StableHlo.nullary_writes, StableHlo.unary_writes, StableHlo.binary_writes, StableHlo.reshape_writes, Finset.mem_singleton] <;>
    exact StableHlo.devRef_ne_of_ne (by decide)

/-- The windows' arrays after the last point read off the exit valuation (inputs are never written back). -/
theorem arrAt_exit (c : Dev nD) (w : Fin cfg0.W) :
    (dats m 0 c).arrAt w cfg0.N = Wexit m c (Proc.devRef .tc (Pipeline.arrRef spec0 w)) := by
  match w with
  | ⟨0, _⟩ => exact ((dats m 0 c).arrAt_in 0 rfl _).trans ((A_eq m c 0).trans (Wexit_of_ne m c main_arg0 (by decide)).symm)
  | ⟨1, _⟩ => exact ((dats m 0 c).arrAt_in 1 rfl _).trans ((A_eq m c 1).trans (Wexit_of_ne m c main_arg1 (by decide)).symm)
  | ⟨2, _⟩ => exact ((dats m 0 c).arrAt_in 2 rfl _).trans ((A_eq m c 2).trans (Wexit_of_ne m c main_arg1 (by decide)).symm)
  | ⟨3, _⟩ => exact (Wexit_v0 m c).symm

/-- The same after the five operations. -/
theorem arrAt_after (c : Dev nD) (w : Fin cfg0.W) :
    (dats m 0 c).arrAt w cfg0.N = StableHlo.after hostOps1 (Wexit m c) (Proc.devRef .tc (Pipeline.arrRef spec0 w)) := by
  rw [StableHlo.after_of_forall_not_mem _ _ (tail_keeps (Pipeline.arrRef spec0 w) (by
    match w with
    | ⟨0, _⟩ => exact .inl rfl
    | ⟨1, _⟩ => exact .inr (.inl rfl)
    | ⟨2, _⟩ => exact .inr (.inl rfl)
    | ⟨3, _⟩ => exact .inr (.inr rfl)))]
  exact arrAt_exit m c w

/-- A core's unscoped buffers held at a valuation are the pipeline's arrays and the bypassing buffers at it. -/
theorem held_split (c : Dev nD) (Wv : Valuation τ sig (Elt F))
    (A : (w : Fin cfg0.W) → Buf (Elt F) ((cfg0.win w).arr.view.loc (c : Thread nD τ)))
    (hA : ∀ w, A w = Wv (Proc.devRef .tc (Pipeline.arrRef spec0 w))) :
    (StableHlo.held (c : Thread nD τ) (Pipeline.ucRefs τ sig) Wv : sProp 𝕄)
      ⊣⊢ iprop((dats m 0 c).arrays A ∗ Pipeline.unscopedRest spec0 c (fun b => Wv (Proc.devRef .tc b))) := by
  rw [← Pipeline.unscopedBufs_held (Ix := Unit) (Name := ℕ) (U := UR sig nD τ) (Lvl := ℕ) c Wv, unscopedBufs_split']
  exact ⟨sep_mono (arrBufs_arrays m c _ A hA).1 .rfl, sep_mono (arrBufs_arrays m c _ A hA).2 .rfl⟩

/-! ## The lines after the region -/

theorem tail_sub : ∀ op ∈ (hostOps1 : List (HloOp τ sig (Elt F))), op.bufs ⊆ Pipeline.ucRefs τ sig := fun op hop =>
  Pipeline.sub_ucRefs op ((List.forall_iff_forall_mem.mp hostOps1_sub) op hop)
theorem tail_fresh : ∀ op ∈ (hostOps1 : List (HloOp τ sig (Elt F))), op.fresh = ∅ := fun op hop =>
  (List.forall_iff_forall_mem.mp hostOps1_fresh) op hop

/-- Off the 1 × 1 result the exit valuation is the launch memory: the bypassing buffers are held at it. -/
theorem rest_exit (c : Dev nD) :
    (Pipeline.unscopedRest spec0 c (V m c) : sProp 𝕄) = Pipeline.unscopedRest spec0 c (fun b => Wexit m c (Proc.devRef .tc b)) := by
  unfold Pipeline.unscopedRest
  refine BI.bigSep_congr fun b hb => ?_
  have hne : b ≠ main_v0 := fun e => by
    subst e
    exact absurd hb (by decide)
  dsimp only
  rw [Wexit_of_ne m c b hne]
  rfl

set_option backward.isDefEq.respectTransparency.types false in
/-- From the region's exit the five operations run over the unscoped buffers, joined from the arrays' shares and the
    bypassing buffers and split again afterwards. -/
theorem tail_run (𝒱₀ : Variants) (c : Dev nD) (Q' : PUnit → sProp 𝕄) :
    iprop((iprop((dats m 0 c).arrays ((dats m 0 c).arrAt · cfg0.N)
              ∗ Pipeline.unscopedRest spec0 c (fun b => StableHlo.after hostOps1 (Wexit m c) (Proc.devRef .tc b))) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (pcfgs (F := F)) defs₀) (Variants.lift 𝒱₀) (c : Thread nD τ) none) Set.univ
          (Pipeline.chain [StableHlo.seq hostOps1]) Q' := by
  have hjoin := (held_split m c (Wexit m c) ((dats m 0 c).arrAt · cfg0.N) (arrAt_exit m c)).2
  have hsplit := (held_split m c (StableHlo.after hostOps1 (Wexit m c)) ((dats m 0 c).arrAt · cfg0.N) (arrAt_after m c)).1
  have hseq := StableHlo.wp_seq (defs := Pipeline.defs (pcfgs (F := F)) defs₀) (Variants.lift 𝒱₀) none Set.univ c (Pipeline.ucRefs τ sig)
    (fun _ => Pipeline.chain []) (K := Q') hostOps1 (tail_sub) (tail_fresh) (Wexit m c)
  rw [rest_exit m c, Pipeline.chain_cons]
  iintro ⟨Hk, Hbd, Ha, Hz⟩
  ihave Hh := hjoin $$ [Ha Hz]
  · isplitl [Ha] <;> iassumption
  iapply hseq $$ [Hbd Hh]
  · isplitl [Hbd] <;> iassumption
  iintro ⟨Hbd, Hh⟩
  rw [Pipeline.chain_nil]
  iapply (le_wp_ret _ _ _ _ Q')
  iapply Hk
  iapply hsplit
  iexact Hh

/-! ## The run -/

set_option backward.isDefEq.respectTransparency.types false in
/-- Every weakly fair execution of @main terminates; both argument arrays end as launched and the scalar result at the
    five operations' value of the exit contents. -/
theorem run_main : θ_run defs (onTc (τ := τ) (main (F := F))) (s₀ m ρ) (fun r => ∀ c : Dev nD,
      r.2.mem ((c.tc : Thread nD τ).loc main_v3) = StableHlo.after hostOps1 (Wexit m c) (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  have hinj : Function.Injective (Pipeline.cellOf (nD := nD) (τ := τ) (Pipeline.pin (pcfgs (F := F)) fun q => (cfgs q).toPCfg_adm)) := cellOf_inj
  exact Pipeline.θ_run_region_pf_tail (pcfgs (F := F)) (fun q => (cfgs q).toPCfg_adm) (dats m) () hinj 0 winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := initOf (Pipeline.cells (Pipeline.pin (pcfgs (F := F)) fun q => (cfgs q).toPCfg_adm) hinj)
      (Pipeline.launchToks (Pipeline.pin (pcfgs (F := F)) fun q => (cfgs q).toPCfg_adm) hinj))
    (hu₀ := by
      iintro Hu; imodintro
      isplitl [Hu]
      · iapply (show (ownU _ : sProp 𝕄) ⊢ BI.own (emb₁ (initOf (Pipeline.cells (Pipeline.pin (pcfgs (F := F)) fun q => (cfgs q).toPCfg_adm) hinj)
          (Pipeline.launchToks (Pipeline.pin (pcfgs (F := F)) fun q => (cfgs q).toPCfg_adm) hinj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrBufs_arrays m c (V m c) _ (fun w => A_eq m c w)).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (fun b => StableHlo.after hostOps1 (Wexit m c) (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact tail_run m Variants.none c Q')
    (QY := fun c s => ∀ b ∈ Pipeline.restRefsP sig Pipeline.Prefetch.none spec0,
      s.mem ((c.tc : Thread nD τ).loc b) = StableHlo.after hostOps1 (Wexit m c) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => StableHlo.after hostOps1 (Wexit m c) (Proc.devRef .tc b)) s')
      isplitl [HU] <;> iassumption)
    (hQ := fun s h c => ⟨(h c).2.2 main_v3 (by decide),
      ((h c).1 0).trans (((dats m 0 c).arrAt_in 0 rfl _).trans ((A_eq m c 0).trans (V_eq m c main_arg0))),
      ((h c).1 1).trans (((dats m 0 c).arrAt_in 1 rfl _).trans ((A_eq m c 1).trans (V_eq m c main_arg1)))⟩)

end Cert.Kernel.Hand

end
-- ==== Proof.KI.Points.lean ====
/-
  The grid of the one pallas_call, read point by point: 64 points, row-major over (i, j) ∈ 8 × 8. The body's two
  branches are decided by the point alone: the log-ratio scratch is refilled where j = 0 (the points ≡ 0 mod 8), the
  1 × 1 accumulator is reset at the first point only. Also the staging memrefs the pipeline passes the body at a
  point, and the scratch operand.
-/
import proofs.«135756_j53927609369065_1_alg».proof.Proof.Gen.KernelIdeal.Launch
import proofs.«135756_j53927609369065_1_alg».proof.Proof.Gen.KernelIdeal.Skeleton
import proofs.«135756_j53927609369065_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The refill condition (the body's first branch): the column coordinate is 0. -/
abbrev condJ (i : grid0.Coords) : Prop :=
  (Scalar.cmpi .ne (Scalar.extui (Scalar.cmpi .eq (BitVec.ofNat 32 (i 1).val) 0#32)) 0#32) = 1#1
/-- The reset condition (the body's second branch): both coordinates are 0. -/
abbrev condIJ (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

theorem hcondJ : ∀ t : Fin cfg0.N, condJ (grid0.coords t) ↔ t.val % 8 = 0 :=
  (by decide +kernel : ∀ t : Fin grid0.N, condJ (grid0.coords t) ↔ t.val % 8 = 0)
theorem hcondIJ : ∀ t : Fin cfg0.N, condIJ (grid0.coords t) ↔ t.val = 0 :=
  (by decide +kernel : ∀ t : Fin grid0.N, condIJ (grid0.coords t) ↔ t.val = 0)

/-- No window is idle anywhere. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-- Each window's current staging memref at point `t`, and that it is a whole buffer. -/
abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
/-- The scratch operand: the log-ratio of the current row block, kept from the row's first point on. -/
abbrev scM : Memref sig .tc .vmem S1024x128 .f32 := Memref.whole cc0_scratch0

end Cert.KernelIdeal.Hand

end
-- ==== Proof.KI.Runs.lean ====
/-
  The kernel body run once per control case, on any whole staging memrefs. The body has two branches, both decided by
  the grid point: where the column coordinate is 0 it refills the scratch with the log-ratio of the two row blocks it
  was handed; at the very first point it also zeroes the 1 × 1 accumulator; at every point it then adds the tile's sum,
  computed from the scratch and the third block, into the accumulator. Three cases meet the grid: the first point
  (both branches), the other points of column 0 (refill only), and the rest (neither). Each run hands back the
  input blocks untouched and names what the stores left as lists of pieces (last store first).
-/
import proofs.«135756_j53927609369065_1_alg».proof.Proof.KI.Points

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Neither branch taken (the column coordinate is not 0): the scratch is read, not written; the accumulator is read
    and stored once. -/
noncomputable def runRest (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : ¬condJ i) (hIJ : ¬condIJ i)
    (x0 x1 x2 : Vec F S1024x128 .f32) (o : Vec F S1x1 .f32) (s : Vec F S1024x128 .f32) :
    { L5 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare s
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ owns (c : Thread nD τ) arg6 fullShare s) -∗ K ⟨⟩))
          ⊢ wp frame (wpE (defs₀ (F := F)) Variants.none c none) E (cc0__kernel i arg2 harg2 arg3 harg3 arg4 harg4 arg5 harg5 arg6 harg6) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf5; obtain rfl := harg6.eq_unread hf6
    sl_exec (disch := first | exact hJ | exact hIJ)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; isplitr; · ipureintro; exact harg6.read_unread _
    iexact H6

/-- The refill alone (column 0 of a later row): the scratch is loaded (its old contents, unused), stored whole with the
    log-ratio, and read back; the accumulator is read and stored once. -/
noncomputable def runRefill (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : ¬condIJ i)
    (x0 x1 x2 : Vec F S1024x128 .f32) (o : Vec F S1x1 .f32) :
    Σ' (L5 : List (View.Piece (Elt F) S1x1 .f32)), { L6 : List (View.Piece (Elt F) S1024x128 .f32) //
      ∀ (s : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare s
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__kernel i arg2 harg2 arg3 harg3 arg4 harg4 arg5 harg5 arg6 harg6) K } := by
  refine ⟨?_, ?_, fun s E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf5; obtain rfl := harg6.eq_unread hf6
    sl_exec (disch := first | exact hJ | exact hIJ)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact H6

/-- The first point (both branches): the scratch refilled as above; the accumulator loaded (contents unused), zeroed,
    read back and stored with the first tile's sum added. -/
noncomputable def runFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : condIJ i)
    (x0 x1 x2 : Vec F S1024x128 .f32) :
    Σ' (L5 : List (View.Piece (Elt F) S1x1 .f32)), { L6 : List (View.Piece (Elt F) S1024x128 .f32) //
      ∀ (o : Vec F S1x1 .f32) (s : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare o ∗ owns (c : Thread nD τ) arg6 fullShare s
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__kernel i arg2 harg2 arg3 harg3 arg4 harg4 arg5 harg5 arg6 harg6) K } := by
  refine ⟨?_, ?_, fun o s E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf5; obtain rfl := harg6.eq_unread hf6
    sl_exec (disch := first | exact hJ | exact hIJ)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact H6

end Cert.KernelIdeal.Hand

end
-- ==== Proof.KI.Data.lean ====
/-
  What the 1 × 1 accumulator and the log-ratio scratch hold after each grid point, and the pipeline's proof data.

  After the first point the accumulator holds what the reset-then-add left and the scratch the first row block's
  log-ratio; after a later point of column 0 the scratch is refilled from that point's blocks and the accumulator is the
  previous one plus the tile; after any other point the scratch is unchanged and the accumulator again the previous one
  plus the tile. The three input windows' staging buffers hold their blocks at every point (windows 1 and 2 stage blocks
  of ONE array, the target, each under half of its share); the accumulator's buffer is written back only after the last
  point, so at every later point the body finds in it what the point before left.
-/
import proofs.«135756_j53927609369065_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- The TensorCore buffers when the region is entered: @main runs nothing before it. -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What each case's stores leave -/

/-- A view of the accumulator's shape and one of the scratch's, through which the stores' pieces are read back (the
    choice of view does not matter where the pieces cover). -/
abbrev VAcc : View sig .tc .vmem S1x1 .f32 := (Memref.whole cc0_stg3_0 : Memref sig .tc .vmem S1x1 .f32).view
abbrev VScr : View sig .tc .vmem S1024x128 .f32 := scM.view

def accRest (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : ¬condJ i) (hIJ : ¬condIJ i)
    (x0 x1 x2 : Vec F S1024x128 .f32) (o : Vec F S1x1 .f32) (s : Vec F S1024x128 .f32) : Vec F S1x1 .f32 :=
  VAcc.read (Elt F) (VAcc.writes (Elt F) VAcc.junk (runRest c i arg2 harg2 arg3 harg3 arg4 harg4 arg5 harg5 arg6 harg6 hJ hIJ x0 x1 x2 o s).1)
theorem coverRest (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : ¬condJ i) (hIJ : ¬condIJ i)
    (x0 x1 x2 : Vec F S1024x128 .f32) (o : Vec F S1x1 .f32) (s : Vec F S1024x128 .f32) (y : S1x1.Idx) :
    ∃ pc ∈ (runRest c i arg2 harg2 arg3 harg3 arg4 harg4 arg5 harg5 arg6 harg6 hJ hIJ x0 x1 x2 o s).1, y ∈ pc.1.set :=
  View.cover_of_tiledL (runRest c i arg2 harg2 arg3 harg3 arg4 harg4 arg5 harg5 arg6 harg6 hJ hIJ x0 x1 x2 o s).1 S1x1.size (by sl_kernel_rfl) y

def accRefill (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : ¬condIJ i)
    (x0 x1 x2 : Vec F S1024x128 .f32) (o : Vec F S1x1 .f32) : Vec F S1x1 .f32 :=
  VAcc.read (Elt F) (VAcc.writes (Elt F) VAcc.junk (runRefill c i arg2 harg2 arg3 harg3 arg4 harg4 arg5 harg5 arg6 harg6 hJ hIJ x0 x1 x2 o).1)
def scrRefill (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : ¬condIJ i)
    (x0 x1 x2 : Vec F S1024x128 .f32) (o : Vec F S1x1 .f32) : Vec F S1024x128 .f32 :=
  VScr.read (Elt F) (VScr.writes (Elt F) VScr.junk (runRefill c i arg2 harg2 arg3 harg3 arg4 harg4 arg5 harg5 arg6 harg6 hJ hIJ x0 x1 x2 o).2.1)
theorem coverRefillAcc (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : ¬condIJ i)
    (x0 x1 x2 : Vec F S1024x128 .f32) (o : Vec F S1x1 .f32) (y : S1x1.Idx) :
    ∃ pc ∈ (runRefill c i arg2 harg2 arg3 harg3 arg4 harg4 arg5 harg5 arg6 harg6 hJ hIJ x0 x1 x2 o).1, y ∈ pc.1.set :=
  View.cover_of_tiledL (runRefill c i arg2 harg2 arg3 harg3 arg4 harg4 arg5 harg5 arg6 harg6 hJ hIJ x0 x1 x2 o).1 S1x1.size (by sl_kernel_rfl) y
theorem coverRefillScr (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : ¬condIJ i)
    (x0 x1 x2 : Vec F S1024x128 .f32) (o : Vec F S1x1 .f32) (y : S1024x128.Idx) :
    ∃ pc ∈ (runRefill c i arg2 harg2 arg3 harg3 arg4 harg4 arg5 harg5 arg6 harg6 hJ hIJ x0 x1 x2 o).2.1, y ∈ pc.1.set :=
  View.cover_of_tiledL (runRefill c i arg2 harg2 arg3 harg3 arg4 harg4 arg5 harg5 arg6 harg6 hJ hIJ x0 x1 x2 o).2.1 S1024x128.size (by sl_kernel_rfl) y

def accFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : condIJ i)
    (x0 x1 x2 : Vec F S1024x128 .f32) : Vec F S1x1 .f32 :=
  VAcc.read (Elt F) (VAcc.writes (Elt F) VAcc.junk (runFirst c i arg2 harg2 arg3 harg3 arg4 harg4 arg5 harg5 arg6 harg6 hJ hIJ x0 x1 x2).1)
def scrFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : condIJ i)
    (x0 x1 x2 : Vec F S1024x128 .f32) : Vec F S1024x128 .f32 :=
  VScr.read (Elt F) (VScr.writes (Elt F) VScr.junk (runFirst c i arg2 harg2 arg3 harg3 arg4 harg4 arg5 harg5 arg6 harg6 hJ hIJ x0 x1 x2).2.1)
theorem coverFirstAcc (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : condIJ i)
    (x0 x1 x2 : Vec F S1024x128 .f32) (y : S1x1.Idx) :
    ∃ pc ∈ (runFirst c i arg2 harg2 arg3 harg3 arg4 harg4 arg5 harg5 arg6 harg6 hJ hIJ x0 x1 x2).1, y ∈ pc.1.set :=
  View.cover_of_tiledL (runFirst c i arg2 harg2 arg3 harg3 arg4 harg4 arg5 harg5 arg6 harg6 hJ hIJ x0 x1 x2).1 S1x1.size (by sl_kernel_rfl) y
theorem coverFirstScr (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : condIJ i)
    (x0 x1 x2 : Vec F S1024x128 .f32) (y : S1024x128.Idx) :
    ∃ pc ∈ (runFirst c i arg2 harg2 arg3 harg3 arg4 harg4 arg5 harg5 arg6 harg6 hJ hIJ x0 x1 x2).2.1, y ∈ pc.1.set :=
  View.cover_of_tiledL (runFirst c i arg2 harg2 arg3 harg3 arg4 harg4 arg5 harg5 arg6 harg6 hJ hIJ x0 x1 x2).2.1 S1024x128.size (by sl_kernel_rfl) y

/-! ## Point by point -/

theorem N64 : cfg0.N = 64 := N_0

/-- The accumulator's staging buffer and the scratch after the body at position `n`. -/
def outsAt (c : Dev nD) : (n : ℕ) → n < cfg0.N → Vec F S1x1 .f32 × Vec F S1024x128 .f32
  | 0, hn =>
    (accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcondJ ⟨0, hn⟩).mpr (Nat.zero_mod _)) ((hcondIJ ⟨0, hn⟩).mpr rfl) (iblk m c 0 ⟨0, hn⟩) (iblk m c 1 ⟨0, hn⟩) (iblk m c 2 ⟨0, hn⟩),
     scrFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcondJ ⟨0, hn⟩).mpr (Nat.zero_mod _)) ((hcondIJ ⟨0, hn⟩).mpr rfl) (iblk m c 0 ⟨0, hn⟩) (iblk m c 1 ⟨0, hn⟩) (iblk m c 2 ⟨0, hn⟩))
  | n + 1, hn =>
    if h0 : (n + 1) % 8 = 0 then
      (accRefill c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcondJ ⟨n + 1, hn⟩).mpr h0) (fun h => Nat.succ_ne_zero n ((hcondIJ ⟨n + 1, hn⟩).mp h)) (iblk m c 0 ⟨n + 1, hn⟩) (iblk m c 1 ⟨n + 1, hn⟩) (iblk m c 2 ⟨n + 1, hn⟩) (outsAt c n (Nat.lt_of_succ_lt hn)).1,
       scrRefill c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcondJ ⟨n + 1, hn⟩).mpr h0) (fun h => Nat.succ_ne_zero n ((hcondIJ ⟨n + 1, hn⟩).mp h)) (iblk m c 0 ⟨n + 1, hn⟩) (iblk m c 1 ⟨n + 1, hn⟩) (iblk m c 2 ⟨n + 1, hn⟩) (outsAt c n (Nat.lt_of_succ_lt hn)).1)
    else
      (accRest c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondJ ⟨n + 1, hn⟩).mp h)) (fun h => Nat.succ_ne_zero n ((hcondIJ ⟨n + 1, hn⟩).mp h)) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2,
       (outsAt c n (Nat.lt_of_succ_lt hn)).2)

theorem outsAt_first (c : Dev nD) (t : Fin cfg0.N) (hz : t.val = 0) :
    outsAt m c t.val t.isLt =
      (accFirst c (grid0.coords t) (ms0 t) (hs0 t) (ms1 t) (hs1 t) (ms2 t) (hs2 t) (ms3 t) (hs3 t) scM (Memref.isWhole_whole _) ((hcondJ t).mpr (by rw [hz])) ((hcondIJ t).mpr hz) (iblk m c 0 t) (iblk m c 1 t) (iblk m c 2 t),
       scrFirst c (grid0.coords t) (ms0 t) (hs0 t) (ms1 t) (hs1 t) (ms2 t) (hs2 t) (ms3 t) (hs3 t) scM (Memref.isWhole_whole _) ((hcondJ t).mpr (by rw [hz])) ((hcondIJ t).mpr hz) (iblk m c 0 t) (iblk m c 1 t) (iblk m c 2 t)) := by
  obtain ⟨n, hn⟩ := t
  cases n with
  | zero => rfl
  | succ n => exact absurd hz (Nat.succ_ne_zero n)

theorem outsAt_refill (c : Dev nD) (t : Fin cfg0.N) (hz : t.val ≠ 0) (h0 : t.val % 8 = 0) :
    outsAt m c t.val t.isLt =
      (accRefill c (grid0.coords t) (ms0 t) (hs0 t) (ms1 t) (hs1 t) (ms2 t) (hs2 t) (ms3 t) (hs3 t) scM (Memref.isWhole_whole _) ((hcondJ t).mpr h0) (fun h => hz ((hcondIJ t).mp h)) (iblk m c 0 t) (iblk m c 1 t) (iblk m c 2 t) (outsAt m c (t.val - 1) (Nat.lt_of_le_of_lt (Nat.sub_le _ _) t.isLt)).1,
       scrRefill c (grid0.coords t) (ms0 t) (hs0 t) (ms1 t) (hs1 t) (ms2 t) (hs2 t) (ms3 t) (hs3 t) scM (Memref.isWhole_whole _) ((hcondJ t).mpr h0) (fun h => hz ((hcondIJ t).mp h)) (iblk m c 0 t) (iblk m c 1 t) (iblk m c 2 t) (outsAt m c (t.val - 1) (Nat.lt_of_le_of_lt (Nat.sub_le _ _) t.isLt)).1) := by
  obtain ⟨n, hn⟩ := t
  cases n with
  | zero => exact absurd rfl hz
  | succ n => exact (dif_pos h0).trans rfl

theorem outsAt_rest (c : Dev nD) (t : Fin cfg0.N) (hz : t.val ≠ 0) (h0 : ¬t.val % 8 = 0) :
    outsAt m c t.val t.isLt =
      (accRest c (grid0.coords t) (ms0 t) (hs0 t) (ms1 t) (hs1 t) (ms2 t) (hs2 t) (ms3 t) (hs3 t) scM (Memref.isWhole_whole _) (fun h => h0 ((hcondJ t).mp h)) (fun h => hz ((hcondIJ t).mp h)) (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2,
       (outsAt m c (t.val - 1) (Nat.lt_of_le_of_lt (Nat.sub_le _ _) t.isLt)).2) := by
  obtain ⟨n, hn⟩ := t
  cases n with
  | zero => exact absurd rfl hz
  | succ n => exact (dif_neg h0).trans rfl

/-! ## The region invariant: the scratch, carried -/

/-- Before the first point the scratch holds anything; before a later point what the point before left. Beside it the
    generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## The proof data -/

/-- Arrays as the region finds them; each input's buffer left at its block; the accumulator's at `outsAt`; the two
    windows on the target array hold it under the two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
/-- At a later point the accumulator's buffer holds what the point before left: it is written back after the last
    point only. -/
theorem before3 (c : Dev nD) (t : Fin cfg0.N) (hz : t.val ≠ 0) (d) :
    (dats m 0 c).before 3 t d = (outsAt m c (t.val - 1) (Nat.lt_of_le_of_lt (Nat.sub_le _ _) t.isLt)).1 := by
  have hN : t.val < 64 := lt_of_lt_of_eq t.isLt N64
  rw [Dat.before_out_kept _ 3 rfl t hz (Bool.eq_false_iff.mpr fun h => by have := (flush0_3 _).mp h; dsimp only at this; omega)
    (fun _ => rfl) (fun _ _ => rfl)]
  dsimp only [dats]

end Cert.KernelIdeal.Hand

end
-- ==== Proof.KI.Body.lean ====
/-
  The body obligation: at every grid point the kernel body, handed the invariant (the scratch at what the point before
  left), the three input blocks and the accumulator's buffer at what the point before left, runs to the invariant of the
  next point, the blocks in place and the accumulator's buffer at this point's contents. By cases on the point: the
  first, another point of column 0, any other.
-/
import proofs.«135756_j53927609369065_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  have hN : t.val < 64 := lt_of_lt_of_eq t.isLt N64
  by_cases hz : t.val = 0
  · rw [outsAt_first m c t hz]
    unfold accFirst scrFirst; (try dsimp only)
    rw [PhiS_castSucc m c t, PhiS_zero m c _ _ hz, PhiA_eq]
    iintro ⟨⟨⟨%s, HS⟩, Hg⟩, Ho, ⟨%d0, H0⟩, ⟨%d1, H1⟩, ⟨%d2, H2⟩, ⟨%d3, H3⟩⟩
    iapply ((runFirst c (grid0.coords t) _ _ _ _ _ _ _ _ _ _ ((hcondJ t).mpr (by rw [hz])) ((hcondIJ t).mpr hz) (iblk m c 0 t) (iblk m c 1 t) (iblk m c 2 t)).2.2 _ _ Set.univ _)
    isplitl [H0]; · iexact H0
    isplitl [H1]; · iexact H1
    isplitl [H2]; · iexact H2
    isplitl [H3]; · iexact H3
    isplitl [HS]; · iexact HS
    iintro ⟨H0, H1, H2, ⟨%e3, H3⟩, ⟨%es, HS⟩⟩
    isplitl [HS Hg]
    · isplitl [HS]
      · unfold owns; iexists _; isplitr
        swap; · iexact HS
        ipureintro; exact View.read_writes_of_cover _ _ _ _ _ (coverFirstScr c _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirstAcc c _ _ _ _ _ _ _ _ _ _ _ _ _ _ _ _)
  · simp only [before3 m c t hz]
    rw [PhiS_castSucc m c t, PhiS_pos m c _ _ hz]
    by_cases h0 : t.val % 8 = 0
    · rw [outsAt_refill m c t hz h0]
      unfold accRefill scrRefill; (try dsimp only)
      iintro ⟨⟨HS, Hg⟩, Ho, ⟨%d0, H0⟩, ⟨%d1, H1⟩, ⟨%d2, H2⟩, ⟨%d3, H3⟩⟩
      iapply ((runRefill c (grid0.coords t) _ _ _ _ _ _ _ _ _ _ ((hcondJ t).mpr h0) (fun h => hz ((hcondIJ t).mp h)) (iblk m c 0 t) (iblk m c 1 t) (iblk m c 2 t) (outsAt m c (t.val - 1) (Nat.lt_of_le_of_lt (Nat.sub_le _ _) t.isLt)).1).2.2 (outsAt m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverRefillScr c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverRefillAcc c _ _ _ _ _ _ _ _ _ _ _ _ _ _ _ _ _)
    · rw [outsAt_rest m c t hz h0]
      unfold accRest; (try dsimp only)
      iintro ⟨⟨HS, Hg⟩, Ho, ⟨%d0, H0⟩, ⟨%d1, H1⟩, ⟨%d2, H2⟩, ⟨%d3, H3⟩⟩
      iapply ((runRest c (grid0.coords t) _ _ _ _ _ _ _ _ _ _ (fun h => h0 ((hcondJ t).mp h)) (fun h => hz ((hcondIJ t).mp h)) (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2).2 Set.univ _)
      isplitl [H0]; · iexact H0
      isplitl [H1]; · iexact H1
      isplitl [H2]; · iexact H2
      isplitl [H3]; · iexact H3
      isplitl [HS]; · iexact HS
      iintro ⟨H0, H1, H2, ⟨%e3, H3⟩, HS⟩
      isplitl [HS Hg]
      · isplitl [HS]; · iexact HS
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverRest c _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back, the scratch's contents forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N64; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

end Cert.KernelIdeal.Hand

end
-- ==== Proof.KI.Launch.lean ====
/-
  The launch. The kernel is handed the target array through two windows, so the region is entered with that array's
  full share split in two halves, one per window, and left with the halves joined again; the source array and the
  1 × 1 result are held whole. After the region @main reshapes the 1 × 1 result to a scalar, divides it by 2^26 and adds
  it to 1e-4: five host operations over buffers no window stages, run from the region's exit contents. The run ends
  with both argument arrays as launched and the scalar result at those five operations' value of the accumulator's
  last contents.
-/
import proofs.«135756_j53927609369065_1_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' shares at the region's boundary -/

/-- The three buffers behind the four windows. -/
theorem arrImage : Finset.univ.image (Pipeline.arrRef spec0) = {main_arg0, main_arg1, main_v0} := by decide

theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
  unfold Pipeline.arrBufs
  rw [arrImage, BI.bigSep_insert (by decide), BI.bigSep_insert (by decide), BI.bigSep_singleton]
  rfl

theorem arrays_eq4 (c : Dev nD) (W : (b : Ref sig .tc) → Buf (Elt F) ((c : Thread nD τ).loc b))
    (A : (w : Fin cfg0.W) → Buf (Elt F) ((cfg0.win w).arr.view.loc (c : Thread nD τ)))
    (hA : ∀ w, A w = W (Pipeline.arrRef spec0 w)) :
    ((dats m 0 c).arrays A : sProp 𝕄)
      = iprop((((c : Thread nD τ).loc main_arg0) ↦{fullShare} W main_arg0) ∗ (((c : Thread nD τ).loc main_arg1) ↦{fullShare.left} W main_arg1)
          ∗ (((c : Thread nD τ).loc main_arg1) ↦{fullShare.right} W main_arg1) ∗ (((c : Thread nD τ).loc main_v0) ↦{fullShare} W main_v0)) := by
  unfold Dat.arrays
  rw [bigSep_W0]
  (try rw [(arr_whole0 0).set_eq_univ]); (try rw [(arr_whole0 1).set_eq_univ]); (try rw [(arr_whole0 2).set_eq_univ]); (try rw [(arr_whole0 3).set_eq_univ])
  rw [show (dats m 0 c).share 0 = fullShare from rfl, show (dats m 0 c).share 1 = fullShare.left from rfl,
    show (dats m 0 c).share 2 = fullShare.right from rfl, show (dats m 0 c).share 3 = fullShare from rfl]
  rw [hA 0, hA 1, hA 2, hA 3]

/-- The buffers behind the windows, each whole at the full share at contents `W`, are the pipeline's arrays at the
    same contents: the target's full share is the two halves windows 1 and 2 hold. -/
theorem arrBufs_arrays (c : Dev nD) (W : (b : Ref sig .tc) → Buf (Elt F) ((c : Thread nD τ).loc b))
    (A : (w : Fin cfg0.W) → Buf (Elt F) ((cfg0.win w).arr.view.loc (c : Thread nD τ)))
    (hA : ∀ w, A w = W (Pipeline.arrRef spec0 w)) :
    (Pipeline.arrBufs spec0 c W : sProp 𝕄) ⊣⊢ (dats m 0 c).arrays A := by
  rw [arrBufs_eq, arrays_eq4 m c W A hA]
  constructor
  · iintro ⟨H0, H1, H3⟩
    ihave H12 := (pointsTo_share (PosShare.mem_left_op_right fullShare)).1 $$ H1
    icases H12 with ⟨H1, H2⟩
    isplitl [H0]; · iexact H0
    isplitl [H1]; · iexact H1
    isplitl [H2]; · iexact H2
    iexact H3
  · iintro ⟨H0, H1, H2, H3⟩
    isplitl [H0]; · iexact H0
    isplitl [H1 H2]
    · iapply (pointsTo_share (PosShare.mem_left_op_right fullShare)).2
      isplitl [H1]; · iexact H1
      iexact H2
    iexact H3

/-- A core's unscoped buffers are the buffers behind the windows and the rest. -/
theorem unscopedBufs_split' (c : Dev nD) (W : (b : Ref sig .tc) → Buf (Elt F) ((c : Thread nD τ).loc b)) :
    (unscopedBufs c W : sProp 𝕄) = iprop(Pipeline.arrBufs spec0 c W ∗ Pipeline.unscopedRest spec0 c W) := by
  classical
  have hA : Finset.univ.image (Pipeline.arrRef spec0) ⊆ Finset.univ.filter fun b : Ref sig .tc => ¬ b.isScoped := by decide
  unfold unscopedBufs Pipeline.unscopedRest Pipeline.arrBufs
  rw [BI.bigSep_sdiff_split hA]
  rfl

/-! ## @main around the region -/

theorem hostOps1_fresh : (hostOps1 : List (HloOp τ sig (Elt F))).Forall fun op => op.fresh = ∅ := by
  simp only [List.Forall]; repeat' constructor

/-- @main is the region continued by the five host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The TensorCore buffers at the region's exit: as launched, but for the 1 × 1 result, which holds the accumulator's
    last contents. -/
def Wexit (c : Dev nD) : Valuation τ sig (Elt F) :=
  Function.update (fun b => m (c, b)) (Proc.devRef .tc main_v0) ((dats m 0 c).arrAt 3 cfg0.N)

theorem Wexit_v0 (c : Dev nD) : Wexit m c (Proc.devRef .tc main_v0) = (dats m 0 c).arrAt 3 cfg0.N := by
  unfold Wexit; exact Function.update_self ..

theorem Wexit_of_ne (c : Dev nD) (b : Ref sig .tc) (hb : b ≠ main_v0) : Wexit m c (Proc.devRef .tc b) = m ((c : Thread nD τ).loc b) := by
  unfold Wexit
  exact Function.update_of_ne (fun e => hb (Proc.devRef_injective (τ := τ) _ e)) ..

/-- The five operations write neither argument array nor the 1 × 1 result. -/
theorem tail_keeps (b : Ref sig .tc) (hb : b = main_arg0 ∨ b = main_arg1 ∨ b = main_v0) :
    ∀ op ∈ (hostOps1 : List (HloOp τ sig (Elt F))), Proc.devRef .tc b ∉ op.writes := by
  intro op hop
  simp only [hostOps1, List.mem_cons, List.mem_nil_iff, or_false] at hop
  rcases hb with rfl | rfl | rfl <;> rcases hop with rfl | rfl | rfl | rfl | rfl <;>
    simp only [StableHlo.nullary_writes, StableHlo.unary_writes, StableHlo.binary_writes, StableHlo.reshape_writes, Finset.mem_singleton] <;>
    exact StableHlo.devRef_ne_of_ne (by decide)

/-- The windows' arrays after the last point read off the exit valuation (inputs are never written back). -/
theorem arrAt_exit (c : Dev nD) (w : Fin cfg0.W) :
    (dats m 0 c).arrAt w cfg0.N = Wexit m c (Proc.devRef .tc (Pipeline.arrRef spec0 w)) := by
  match w with
  | ⟨0, _⟩ => exact ((dats m 0 c).arrAt_in 0 rfl _).trans ((A_eq m c 0).trans (Wexit_of_ne m c main_arg0 (by decide)).symm)
  | ⟨1, _⟩ => exact ((dats m 0 c).arrAt_in 1 rfl _).trans ((A_eq m c 1).trans (Wexit_of_ne m c main_arg1 (by decide)).symm)
  | ⟨2, _⟩ => exact ((dats m 0 c).arrAt_in 2 rfl _).trans ((A_eq m c 2).trans (Wexit_of_ne m c main_arg1 (by decide)).symm)
  | ⟨3, _⟩ => exact (Wexit_v0 m c).symm

/-- The same after the five operations. -/
theorem arrAt_after (c : Dev nD) (w : Fin cfg0.W) :
    (dats m 0 c).arrAt w cfg0.N = StableHlo.after hostOps1 (Wexit m c) (Proc.devRef .tc (Pipeline.arrRef spec0 w)) := by
  rw [StableHlo.after_of_forall_not_mem _ _ (tail_keeps (Pipeline.arrRef spec0 w) (by
    match w with
    | ⟨0, _⟩ => exact .inl rfl
    | ⟨1, _⟩ => exact .inr (.inl rfl)
    | ⟨2, _⟩ => exact .inr (.inl rfl)
    | ⟨3, _⟩ => exact .inr (.inr rfl)))]
  exact arrAt_exit m c w

/-- A core's unscoped buffers held at a valuation are the pipeline's arrays and the bypassing buffers at it. -/
theorem held_split (c : Dev nD) (Wv : Valuation τ sig (Elt F))
    (A : (w : Fin cfg0.W) → Buf (Elt F) ((cfg0.win w).arr.view.loc (c : Thread nD τ)))
    (hA : ∀ w, A w = Wv (Proc.devRef .tc (Pipeline.arrRef spec0 w))) :
    (StableHlo.held (c : Thread nD τ) (Pipeline.ucRefs τ sig) Wv : sProp 𝕄)
      ⊣⊢ iprop((dats m 0 c).arrays A ∗ Pipeline.unscopedRest spec0 c (fun b => Wv (Proc.devRef .tc b))) := by
  rw [← Pipeline.unscopedBufs_held (Ix := Unit) (Name := ℕ) (U := UR sig nD τ) (Lvl := ℕ) c Wv, unscopedBufs_split']
  exact ⟨sep_mono (arrBufs_arrays m c _ A hA).1 .rfl, sep_mono (arrBufs_arrays m c _ A hA).2 .rfl⟩

/-! ## The lines after the region -/

theorem tail_sub : ∀ op ∈ (hostOps1 : List (HloOp τ sig (Elt F))), op.bufs ⊆ Pipeline.ucRefs τ sig := fun op hop =>
  Pipeline.sub_ucRefs op ((List.forall_iff_forall_mem.mp hostOps1_sub) op hop)
theorem tail_fresh : ∀ op ∈ (hostOps1 : List (HloOp τ sig (Elt F))), op.fresh = ∅ := fun op hop =>
  (List.forall_iff_forall_mem.mp hostOps1_fresh) op hop

/-- Off the 1 × 1 result the exit valuation is the launch memory: the bypassing buffers are held at it. -/
theorem rest_exit (c : Dev nD) :
    (Pipeline.unscopedRest spec0 c (V m c) : sProp 𝕄) = Pipeline.unscopedRest spec0 c (fun b => Wexit m c (Proc.devRef .tc b)) := by
  unfold Pipeline.unscopedRest
  refine BI.bigSep_congr fun b hb => ?_
  have hne : b ≠ main_v0 := fun e => by
    subst e
    exact absurd hb (by decide)
  dsimp only
  rw [Wexit_of_ne m c b hne]
  rfl

set_option backward.isDefEq.respectTransparency.types false in
/-- From the region's exit the five operations run over the unscoped buffers, joined from the arrays' shares and the
    bypassing buffers and split again afterwards. -/
theorem tail_run (𝒱₀ : Variants) (c : Dev nD) (Q' : PUnit → sProp 𝕄) :
    iprop((iprop((dats m 0 c).arrays ((dats m 0 c).arrAt · cfg0.N)
              ∗ Pipeline.unscopedRest spec0 c (fun b => StableHlo.after hostOps1 (Wexit m c) (Proc.devRef .tc b))) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (pcfgs (F := F)) defs₀) (Variants.lift 𝒱₀) (c : Thread nD τ) none) Set.univ
          (Pipeline.chain [StableHlo.seq hostOps1]) Q' := by
  have hjoin := (held_split m c (Wexit m c) ((dats m 0 c).arrAt · cfg0.N) (arrAt_exit m c)).2
  have hsplit := (held_split m c (StableHlo.after hostOps1 (Wexit m c)) ((dats m 0 c).arrAt · cfg0.N) (arrAt_after m c)).1
  have hseq := StableHlo.wp_seq (defs := Pipeline.defs (pcfgs (F := F)) defs₀) (Variants.lift 𝒱₀) none Set.univ c (Pipeline.ucRefs τ sig)
    (fun _ => Pipeline.chain []) (K := Q') hostOps1 (tail_sub) (tail_fresh) (Wexit m c)
  rw [rest_exit m c, Pipeline.chain_cons]
  iintro ⟨Hk, Hbd, Ha, Hz⟩
  ihave Hh := hjoin $$ [Ha Hz]
  · isplitl [Ha] <;> iassumption
  iapply hseq $$ [Hbd Hh]
  · isplitl [Hbd] <;> iassumption
  iintro ⟨Hbd, Hh⟩
  rw [Pipeline.chain_nil]
  iapply (le_wp_ret _ _ _ _ Q')
  iapply Hk
  iapply hsplit
  iexact Hh

/-! ## The run -/

set_option backward.isDefEq.respectTransparency.types false in
/-- Every weakly fair execution of @main terminates; both argument arrays end as launched and the scalar result at the
    five operations' value of the exit contents. -/
theorem run_main : θ_run defs (onTc (τ := τ) (main (F := F))) (s₀ m ρ) (fun r => ∀ c : Dev nD,
      r.2.mem ((c.tc : Thread nD τ).loc main_v3) = StableHlo.after hostOps1 (Wexit m c) (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  have hinj : Function.Injective (Pipeline.cellOf (nD := nD) (τ := τ) (Pipeline.pin (pcfgs (F := F)) fun q => (cfgs q).toPCfg_adm)) := cellOf_inj
  exact Pipeline.θ_run_region_pf_tail (pcfgs (F := F)) (fun q => (cfgs q).toPCfg_adm) (dats m) () hinj 0 winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := initOf (Pipeline.cells (Pipeline.pin (pcfgs (F := F)) fun q => (cfgs q).toPCfg_adm) hinj)
      (Pipeline.launchToks (Pipeline.pin (pcfgs (F := F)) fun q => (cfgs q).toPCfg_adm) hinj))
    (hu₀ := by
      iintro Hu; imodintro
      isplitl [Hu]
      · iapply (show (ownU _ : sProp 𝕄) ⊢ BI.own (emb₁ (initOf (Pipeline.cells (Pipeline.pin (pcfgs (F := F)) fun q => (cfgs q).toPCfg_adm) hinj)
          (Pipeline.launchToks (Pipeline.pin (pcfgs (F := F)) fun q => (cfgs q).toPCfg_adm) hinj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrBufs_arrays m c (V m c) _ (fun w => A_eq m c w)).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (fun b => StableHlo.after hostOps1 (Wexit m c) (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact tail_run m Variants.none c Q')
    (QY := fun c s => ∀ b ∈ Pipeline.restRefsP sig Pipeline.Prefetch.none spec0,
      s.mem ((c.tc : Thread nD τ).loc b) = StableHlo.after hostOps1 (Wexit m c) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => StableHlo.after hostOps1 (Wexit m c) (Proc.devRef .tc b)) s')
      isplitl [HU] <;> iassumption)
    (hQ := fun s h c => ⟨(h c).2.2 main_v3 (by decide),
      ((h c).1 0).trans (((dats m 0 c).arrAt_in 0 rfl _).trans ((A_eq m c 0).trans (V_eq m c main_arg0))),
      ((h c).1 1).trans (((dats m 0 c).arrAt_in 1 rfl _).trans ((A_eq m c 1).trans (V_eq m c main_arg1)))⟩)

end Cert.KernelIdeal.Hand

end
-- ==== Proof.KI.Pieces.lean ====
/-
  What each case's stores leave, read as the body's payloads: the pieces a run found are whole-buffer stores, so the
  contents read back are the last store's payload, whose loads are the buffers' contents (or an earlier store's payload
  where the body reads back what it has just stored: the refilled scratch, the zeroed accumulator).
-/
import proofs.«135756_j53927609369065_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem accRest_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : ¬condJ i) (hIJ : ¬condIJ i)
    (x0 x1 x2 : Vec F S1024x128 .f32) (o : Vec F S1x1 .f32) (s : Vec F S1024x128 .f32) :
    accRest c i arg2 harg2 arg3 harg3 arg4 harg4 arg5 harg5 arg6 harg6 hJ hIJ x0 x1 x2 o s = k0_pay3 s x2 o := by
  unfold accRest
  rw [View.read_writes_eq_canon _ _ _ (coverRest c i arg2 harg2 arg3 harg3 arg4 harg4 arg5 harg5 arg6 harg6 hJ hIJ x0 x1 x2 o s)]
  unfold runRest
  dsimp only
  sl_unfold_words
  rw [View.canon_unit_zero (S := S1x1) hz]
  simp only [View.readAt_eq_ld, harg2.read_unread, harg3.read_unread, harg4.read_unread, harg5.read_unread, harg6.read_unread,
    View.readCov_unit_zero (S := S1024x128) _ hz, View.readCov_unit_zero (S := S1x1) _ hz,
    View.ld_unit_zero (S := S1024x128) hz, View.ld_unit_zero (S := S1x1) hz]

theorem accRefill_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : ¬condIJ i)
    (x0 x1 x2 : Vec F S1024x128 .f32) (o : Vec F S1x1 .f32) :
    accRefill c i arg2 harg2 arg3 harg3 arg4 harg4 arg5 harg5 arg6 harg6 hJ hIJ x0 x1 x2 o = k0_pay3 (k0_pay1 x0 x1) x2 o := by
  unfold accRefill
  rw [View.read_writes_eq_canon _ _ _ (coverRefillAcc c i arg2 harg2 arg3 harg3 arg4 harg4 arg5 harg5 arg6 harg6 hJ hIJ x0 x1 x2 o)]
  unfold runRefill
  dsimp only
  sl_unfold_words
  rw [View.canon_unit_zero (S := S1x1) hz]
  simp only [View.readAt_eq_ld, harg2.read_unread, harg3.read_unread, harg4.read_unread, harg5.read_unread, harg6.read_unread,
    View.readCov_unit_zero (S := S1024x128) _ hz, View.readCov_unit_zero (S := S1x1) _ hz,
    View.ld_unit_zero (S := S1024x128) hz, View.ld_unit_zero (S := S1x1) hz]

theorem scrRefill_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : ¬condIJ i)
    (x0 x1 x2 : Vec F S1024x128 .f32) (o : Vec F S1x1 .f32) :
    scrRefill c i arg2 harg2 arg3 harg3 arg4 harg4 arg5 harg5 arg6 harg6 hJ hIJ x0 x1 x2 o = k0_pay1 x0 x1 := by
  unfold scrRefill
  rw [View.read_writes_eq_canon _ _ _ (coverRefillScr c i arg2 harg2 arg3 harg3 arg4 harg4 arg5 harg5 arg6 harg6 hJ hIJ x0 x1 x2 o)]
  unfold runRefill
  dsimp only
  sl_unfold_words
  rw [View.canon_unit_zero (S := S1024x128) hz]
  simp only [View.readAt_eq_ld, harg2.read_unread, harg3.read_unread, harg4.read_unread, harg5.read_unread, harg6.read_unread,
    View.readCov_unit_zero (S := S1024x128) _ hz, View.readCov_unit_zero (S := S1x1) _ hz,
    View.ld_unit_zero (S := S1024x128) hz, View.ld_unit_zero (S := S1x1) hz]

theorem accFirst_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : condIJ i)
    (x0 x1 x2 : Vec F S1024x128 .f32) :
    accFirst c i arg2 harg2 arg3 harg3 arg4 harg4 arg5 harg5 arg6 harg6 hJ hIJ x0 x1 x2 = k0_pay3 (k0_pay1 x0 x1) x2 (k0_pay2 (F := F)) := by
  unfold accFirst
  rw [View.read_writes_eq_canon _ _ _ (coverFirstAcc c i arg2 harg2 arg3 harg3 arg4 harg4 arg5 harg5 arg6 harg6 hJ hIJ x0 x1 x2)]
  unfold runFirst
  dsimp only
  sl_unfold_words
  rw [View.canon_cons_unit_zero (S := S1x1) hz]
  simp only [View.readAt_eq_ld, harg2.read_unread, harg3.read_unread, harg4.read_unread, harg5.read_unread, harg6.read_unread,
    View.readCov_unit_zero (S := S1024x128) _ hz, View.readCov_unit_zero (S := S1x1) _ hz,
    View.ld_unit_zero (S := S1024x128) hz, View.ld_unit_zero (S := S1x1) hz]

theorem scrFirst_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x1 .f32) (harg5 : arg5.IsWhole) (arg6 : Memref sig .tc .vmem S1024x128 .f32) (harg6 : arg6.IsWhole) (hJ : condJ i) (hIJ : condIJ i)
    (x0 x1 x2 : Vec F S1024x128 .f32) :
    scrFirst c i arg2 harg2 arg3 harg3 arg4 harg4 arg5 harg5 arg6 harg6 hJ hIJ x0 x1 x2 = k0_pay1 x0 x1 := by
  unfold scrFirst
  rw [View.read_writes_eq_canon _ _ _ (coverFirstScr c i arg2 harg2 arg3 harg3 arg4 harg4 arg5 harg5 arg6 harg6 hJ hIJ x0 x1 x2)]
  unfold runFirst
  dsimp only
  sl_unfold_words
  rw [View.canon_unit_zero (S := S1024x128) hz]
  simp only [View.readAt_eq_ld, harg2.read_unread, harg3.read_unread, harg4.read_unread, harg5.read_unread, harg6.read_unread,
    View.readCov_unit_zero (S := S1024x128) _ hz, View.readCov_unit_zero (S := S1x1) _ hz,
    View.ld_unit_zero (S := S1024x128) hz, View.ld_unit_zero (S := S1x1) hz]

end Cert.KernelIdeal.Hand

end
-- ==== Proof.Spec.lean ====
/-
  The loss both programs compute, as one function of the two argument arrays over the extended reals.

  For source `s` and target `t` (both 8192 × 128): the log-ratio `lr i d = log (s i d) - log (t i d)`; for each
  pair of rows `(i, j)` the cell `|-(∑ d, lr i d * t j d)|`; the total of the 8192 × 8192 cells; and the finish
  `1e-4 + total / 2^26` (both literals as their binary values, through the host's own quotient and sum).

  The kernel visits the cells in 8 × 8 tiles of 1024 × 1024: a tile's sum over a row block `a` of the log-ratio and a
  row block `b` of the target is `tile a b`; `rows x p` is row block `p` of an array. That the 64 tiles add up to the
  total is `tiles_total` (addition of extended reals is commutative and associative, so only a reindexing
  8192 = 8 · 1024 on each axis is involved).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SA : Shape := ⟨2, ![8192, 128]⟩
abbrev SB : Shape := ⟨2, ![1024, 128]⟩
abbrev S0 : Shape := ⟨0, ![]⟩

/-- The log-ratio of source over target at an entry. -/
def lr (s t : SA.Idx → EReal) : SA.Idx → EReal := fun y => Ideal.log (s y) - Ideal.log (t y)

/-- The cell of rows `i` (of `x`) and `j` (of `t`): the absolute value of the negated inner product. -/
def cell (x t : SA.Idx → EReal) (i j : Fin 8192) : EReal :=
  max (-(∑ d : Fin 128, x (ix2 i d) * t (ix2 j d))) (-(-(∑ d : Fin 128, x (ix2 i d) * t (ix2 j d))))

/-- The sum of all cells. -/
def total (s t : SA.Idx → EReal) : EReal := ∑ i : Fin 8192, ∑ j : Fin 8192, cell (lr s t) t i j

/-- The host's last two operations on the scalar: divide by 2^26, add to 1e-4's binary value. -/
def finish (x : EReal) : S0.Idx → EReal :=
  addf (F := Ideal) (constant S0 .f32 0x38D1B717#32) (Host.divf (F := Ideal) (fun _ => x) (constant S0 .f32 0x4C800000#32))

/-- The loss. -/
def G (s t : SA.Idx → EReal) : S0.Idx → EReal := finish (total s t)

/-- Row block `p` (1024 rows) of an array. -/
def rows (x : SA.Idx → EReal) (p : Fin 8) : SB.Idx → EReal :=
  fun y => x (ix2 ⟨1024 * p.val + (y 0).val, by have := (y 0).isLt; have := p.isLt; simp only [Matrix.cons_val_zero] at *; omega⟩ (y 1))

/-- One tile's sum: over the 1024 × 1024 pairs of a row of `a` and a row of `b`. -/
def tile (a b : SB.Idx → EReal) : EReal :=
  ∑ r : Fin 1024, ∑ c : Fin 1024,
    max (-(∑ k : Fin 128, a (ix2 r k) * b (ix2 c k))) (-(-(∑ k : Fin 128, a (ix2 r k) * b (ix2 c k))))

/-- A natural number as a block index (its residue mod 8). -/
def blk8 (n : ℕ) : Fin 8 := ⟨n % 8, Nat.mod_lt _ (by norm_num)⟩

/-- The tile the kernel adds at grid point `p` (row-major over the 8 × 8 grid): row block `p / 8` of the log-ratio
    against row block `p % 8` of the target. -/
def tileAt (s t : SA.Idx → EReal) (p : ℕ) : EReal := tile (rows (lr s t) (blk8 (p / 8))) (rows t (blk8 p))

end Cert.Spec

end
-- ==== Proof.Payloads.lean ====
/-
  The three values the kernel body stores, read at an index over the extended reals.

  * The first store of a row block (`k0_pay1`) holds the log-ratio `log s - log t` of the two loaded blocks, entry by
    entry: the shape cast to the same shape moves nothing.
  * The first store of the run (`k0_pay2`) holds `0`: the broadcast of the zero word.
  * Every step's store (`k0_pay3`) holds the loaded accumulator plus the tile's sum. A change of format is the identity;
    the product of a block with the transpose of a block, onto the zero accumulator, is at `(r, c)` the inner product of
    row `r` of the first with row `c` of the second; `0 - x` is `-x`; the absolute value is `max x (-x)`; the sum along
    the lanes and then along the rows is the double sum over `(r, c)`; the casts `[1024] → [1024, 1]`, `[1] → [1, 1]`,
    `[1, 1] → [1, 1]` move nothing.
-/
import proofs.«135756_j53927609369065_1_alg».proof.Proof.Gen.KernelIdeal.Skeleton
import proofs.«135756_j53927609369065_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx

variable [Cert.KernelIdeal.Facts]

/-! ## The first two stores -/

/-- The log-ratio block, at an entry. -/
theorem pay1_eq (v25 v27 : Vec Ideal S1024x128 .f32) (y : S1024x128.Idx) :
    k0_pay1 (F := Ideal) v25 v27 y = Ideal.log (v25 y) - Ideal.log (v27 y) := by
  unfold k0_pay1
  rw [shapeCast_self]
  rfl

/-- The zero the accumulator starts from. -/
theorem pay2_eq (y : S1x1.Idx) : k0_pay2 (F := Ideal) y = 0 := by
  unfold k0_pay2
  exact Ideal.ofBits_zero_f32

/-! ## The product of a block with a transposed block -/

theorem lhs_dot_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_dot_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhs_dot_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhs_dot_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The product onto the zero accumulator, at `(r, c)`: the inner product of row `r` of the left block with row `c` of the
    block whose transpose is the right operand. -/
theorem matmul_transpose_apply (a b : FVec Ideal S1024x128 .bf16) (h : S1024x128.Transposes [1, 0] S128x1024)
    (r c : Fin 1024) :
    matmul dot_S1024x128_S128x1024_S1024x1024_1_0_0_1_n_n none a (transpose S128x1024 [1, 0] b h)
        (constant (F := Ideal) S1024x1024 .f32 0x00000000#32) (ix2 r c)
      = ∑ k : Fin 128, a (ix2 r k) * b (ix2 c k) := by
  refine (Ideal.matmul_constant_zero_apply dot_S1024x128_S128x1024_S1024x1024_1_0_0_1_n_n none a (transpose S128x1024 [1, 0] b h) (ix2 r c)).trans ?_
  rw [← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 r c) ((ValueIdx.contrEquiv1 dot_S1024x128_S128x1024_S1024x1024_1_0_0_1_n_n 128 rfl rfl).symm k) = ix2 r k := funext fun x => Fin.ext (by
    match x with
    | ⟨0, _⟩ => exact lhs_dot_0 _ _
    | ⟨1, _⟩ => exact (lhs_dot_1 _ _).trans hk)
  have er : transpose S128x1024 [1, 0] b h (dot_S1024x128_S128x1024_S1024x1024_1_0_0_1_n_n.rhsIdx (ix2 r c) ((ValueIdx.contrEquiv1 dot_S1024x128_S128x1024_S1024x1024_1_0_0_1_n_n 128 rfl rfl).symm k)) = b (ix2 c k) :=
    transpose_apply _ b h _ _ fun x => by
      match x with
      | ⟨0, _⟩ => exact ((rhs_dot_0 (ix2 r c) _).trans hk).symm
      | ⟨1, _⟩ => exact (rhs_dot_1 (ix2 r c) _).symm
  rw [el, er]

/-! ## The two sums and the casts between them -/

/-- The sum along the lanes, at row `r`. -/
theorem sum_lanes_apply (src : FVec Ideal S1024x1024 .f32) (h : S1024x1024.Reduces [1] S1024) (hφ : FKind.Formats .f32)
    (hacc : (0x00000000#32 : BitVec 32) = 0x00000000#32) (r : Fin 1024) :
    multiReduction .add [1] S1024 src 0x00000000#32 h hφ hacc (ix1 r) = ∑ c : Fin 1024, src (ix2 r c) :=
  (Ideal.multiReduction_add_single src 0x00000000#32 h hφ hacc (ix1 r)).trans
    (Finset.sum_congr rfl fun c _ => congrArg src (funext fun x => Fin.ext (by
      match x with
      | ⟨0, _⟩ => rfl
      | ⟨1, _⟩ => rfl)))

/-- A vector of 1024 entries seen as a column: entry `r`. -/
theorem column_cast_apply {α : Type} (x : S1024.Idx → α) (h : S1024.ShapeCasts S1024x1) (r : Fin 1024) (u : Fin 1) :
    shapeCast S1024x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The sum along the rows of a column. -/
theorem sum_rows_apply (src : FVec Ideal S1024x1 .f32) (h : S1024x1.Reduces [0] S1) (hφ : FKind.Formats .f32)
    (hacc : (0x00000000#32 : BitVec 32) = 0x00000000#32) (u : Fin 1) :
    multiReduction .add [0] S1 src 0x00000000#32 h hφ hacc (ix1 u) = ∑ r : Fin 1024, src (ix2 r u) :=
  (Ideal.multiReduction_add_single src 0x00000000#32 h hφ hacc (ix1 u)).trans
    (Finset.sum_congr rfl fun r _ => congrArg src (funext fun x => Fin.ext (by
      match x with
      | ⟨0, _⟩ => rfl
      | ⟨1, _⟩ => rfl)))

/-! ## Every step's store -/

/-- The accumulator plus the tile's sum. -/
theorem pay3_eq (v8 v10 : Vec Ideal S1024x128 .f32) (v21 : Vec Ideal S1x1 .f32) (y : S1x1.Idx) :
    k0_pay3 (F := Ideal) v8 v10 v21 y = v21 y + Cert.Spec.tile v8 v10 := by
  obtain ⟨p, q, rfl⟩ : ∃ (p : Fin 1) (q : Fin 1), y = ix2 p q := ⟨y 0, y 1, eq_ix2 y⟩
  unfold k0_pay3
  rw [addf_apply, shapeCast_self]
  refine congrArg (v21 (ix2 p q) + ·) ?_
  refine (shapeCast_a_1a_apply _ _ p q).trans ?_
  refine (sum_rows_apply _ _ _ _ q).trans ?_
  unfold Cert.Spec.tile
  refine Finset.sum_congr rfl fun r _ => ?_
  refine (column_cast_apply _ _ r q).trans ?_
  refine (sum_lanes_apply _ _ _ _ r).trans ?_
  refine Finset.sum_congr rfl fun c _ => ?_
  show max (Ideal.ofBits .f32 0x00000000#32 - _) (-(Ideal.ofBits .f32 0x00000000#32 - _)) = _
  rw [Ideal.ofBits_zero_f32, zero_sub, matmul_transpose_apply]
  rfl

end Cert.KernelIdeal.Pay

end
-- ==== Proof.TilesTotal.lean ====
/-
  The 64 tiles add up to the total.

  A row index below 8192 is a block `a < 8` and a row `r < 1024` within the block, `i = 1024 · a + r`; a grid point
  below 64 is a pair of blocks, `p = 8 · a + b`. Both are bijections, so a sum over the rows is the double sum over
  blocks and rows within a block, and the sum over the grid points is the double sum over the pairs of blocks. A
  tile's summand at `(r, c)` is the cell of rows `1024 · a + r` and `1024 · b + c`. Exchanging the two middle sums
  (addition of extended reals is commutative and associative) gives the total.
-/
import proofs.«135756_j53927609369065_1_alg».proof.Proof.Spec
import Mathlib.Algebra.BigOperators.Fin
import Mathlib.Algebra.BigOperators.Group.Finset.Basic
import Mathlib.Logic.Equiv.Fin.Basic

noncomputable section

namespace Cert.Spec

open Idealize.ShloMosaic Idealize.ShloMosaic.ValueIdx

/-- Row `r` of block `a`, as a row of the whole array. -/
def rowOf (a : Fin 8) (r : Fin 1024) : Fin 8192 :=
  ⟨1024 * a.val + r.val, by have := a.isLt; have := r.isLt; omega⟩

/-- `8192 = 8 · 1024`: a row is a block and a row within the block. -/
def rowEquiv : Fin 8 × Fin 1024 ≃ Fin 8192 where
  toFun p := rowOf p.1 p.2
  invFun i := (⟨i.val / 1024, by have := i.isLt; omega⟩, ⟨i.val % 1024, Nat.mod_lt _ (by norm_num)⟩)
  left_inv p := by
    obtain ⟨⟨a, ha⟩, ⟨r, hr⟩⟩ := p
    simp only [rowOf, Prod.mk.injEq, Fin.mk.injEq]
    constructor <;> omega
  right_inv i := by
    obtain ⟨i, hi⟩ := i
    simp only [rowOf, Fin.mk.injEq]
    omega

/-- A sum over the rows is the sum over the blocks of the sums over the rows of a block. -/
theorem sum_rows (f : Fin 8192 → EReal) :
    ∑ i : Fin 8192, f i = ∑ a : Fin 8, ∑ r : Fin 1024, f (rowOf a r) := by
  rw [← Equiv.sum_comp rowEquiv f, Fintype.sum_prod_type]
  rfl

/-- `64 = 8 · 8`: a grid point is a pair of blocks. -/
def gridEquiv : Fin 8 × Fin 8 ≃ Fin 64 where
  toFun p := ⟨8 * p.1.val + p.2.val, by have := p.1.isLt; have := p.2.isLt; omega⟩
  invFun i := (⟨i.val / 8, by have := i.isLt; omega⟩, ⟨i.val % 8, Nat.mod_lt _ (by norm_num)⟩)
  left_inv p := by
    obtain ⟨⟨a, ha⟩, ⟨b, hb⟩⟩ := p
    simp only [Prod.mk.injEq, Fin.mk.injEq]
    constructor <;> omega
  right_inv i := by
    obtain ⟨i, hi⟩ := i
    simp only [Fin.mk.injEq]
    omega

/-- A sum over the 64 grid points, each read as its pair of blocks, is the double sum over the pairs. -/
theorem sum_grid (g : Fin 8 → Fin 8 → EReal) :
    (∑ p ∈ Finset.range 64, g (blk8 (p / 8)) (blk8 p)) = ∑ a : Fin 8, ∑ b : Fin 8, g a b := by
  rw [Finset.sum_range (fun p => g (blk8 (p / 8)) (blk8 p)),
    ← Equiv.sum_comp gridEquiv (fun p : Fin 64 => g (blk8 (p.val / 8)) (blk8 p.val)), Fintype.sum_prod_type]
  refine Finset.sum_congr rfl fun a _ => Finset.sum_congr rfl fun b _ => ?_
  have h1 : blk8 ((gridEquiv (a, b)).val / 8) = a := by
    obtain ⟨a, ha⟩ := a
    obtain ⟨b, hb⟩ := b
    simp only [gridEquiv, blk8, Equiv.coe_fn_mk, Fin.mk.injEq]
    omega
  have h2 : blk8 (gridEquiv (a, b)).val = b := by
    obtain ⟨a, ha⟩ := a
    obtain ⟨b, hb⟩ := b
    simp only [gridEquiv, blk8, Equiv.coe_fn_mk, Fin.mk.injEq]
    omega
  rw [h1, h2]

/-- The tile of row block `a` of `x` against row block `b` of `t` is the sum of the cells of its rows. -/
theorem tile_rows (x t : SA.Idx → EReal) (a b : Fin 8) :
    tile (rows x a) (rows t b) = ∑ r : Fin 1024, ∑ c : Fin 1024, cell x t (rowOf a r) (rowOf b c) := rfl

/-- The 64 tiles add up to the total. -/
theorem tiles_total (s t : SA.Idx → EReal) :
    (∑ p ∈ Finset.range 64, tileAt s t p) = total s t := by
  have hgrid := sum_grid (fun a b => tile (rows (lr s t) a) (rows t b))
  refine (hgrid.trans ?_)
  unfold total
  rw [sum_rows]
  refine Finset.sum_congr rfl fun a _ => ?_
  calc (∑ b : Fin 8, tile (rows (lr s t) a) (rows t b))
      = ∑ b : Fin 8, ∑ r : Fin 1024, ∑ c : Fin 1024, cell (lr s t) t (rowOf a r) (rowOf b c) :=
        Finset.sum_congr rfl fun b _ => tile_rows (lr s t) t a b
    _ = ∑ r : Fin 1024, ∑ b : Fin 8, ∑ c : Fin 1024, cell (lr s t) t (rowOf a r) (rowOf b c) :=
        Finset.sum_comm
    _ = ∑ r : Fin 1024, ∑ j : Fin 8192, cell (lr s t) t (rowOf a r) j :=
        Finset.sum_congr rfl fun r _ => (sum_rows fun j => cell (lr s t) t (rowOf a r) j).symm

end Cert.Spec

end
-- ==== Proof.KI.Value.lean ====
/-
  The idealized kernel's result. Over the extended reals the scratch after point n holds the log-ratio of row block
  n / 8 and the 1 × 1 accumulator the sum of the tiles of points 0 … n; after the last point that is the sum of all
  64 tiles, which is the sum over all 8192 × 8192 row pairs; the five host operations then reshape, divide by 2^26 and
  add 1e-4's binary value: the specification's `finish`. Only commutativity and associativity of the extended reals'
  addition are used (in the reindexing of the tiles), so the precondition is never opened.
-/
import proofs.«135756_j53927609369065_1_alg».proof.Proof.KI.Launch
import proofs.«135756_j53927609369065_1_alg».proof.Proof.KI.Pieces
import proofs.«135756_j53927609369065_1_alg».proof.Proof.Payloads
import proofs.«135756_j53927609369065_1_alg».proof.Proof.TilesTotal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec (lr rows tile tileAt total finish G blk8)
open Idealize.ShloMosaic.ValueIdx

variable (m : (ℓ : Loc nD τ sig) → Buf (Elt Ideal) ℓ) (ρ : Dev nD → PrngReg)

/-- The two argument arrays as launched. -/
abbrev srcA (c : Dev nD) : Cert.Spec.SA.Idx → EReal := m ((c : Thread nD τ).loc main_arg0)
abbrev tgtA (c : Dev nD) : Cert.Spec.SA.Idx → EReal := m ((c : Thread nD τ).loc main_arg1)

/-- The three input blocks at a point, at their literal type. -/
abbrev blk0 (c : Dev nD) (t : Fin cfg0.N) : Vec Ideal S1024x128 .f32 := iblk m c 0 t
abbrev blk1 (c : Dev nD) (t : Fin cfg0.N) : Vec Ideal S1024x128 .f32 := iblk m c 1 t
abbrev blk2 (c : Dev nD) (t : Fin cfg0.N) : Vec Ideal S1024x128 .f32 := iblk m c 2 t

/-- The index maps over the grid: windows 0 and 1 follow the row coordinate, window 2 the column coordinate. -/
theorem idx_facts : ∀ t : Fin cfg0.N, win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = t.val % 8 ∧ win0_2.index t (1 : Fin 2) = 0 :=
  (by decide +kernel : ∀ t : Fin grid0.N, _)

theorem blk0_eq (c : Dev nD) (t : Fin cfg0.N) : blk0 m c t = rows (srcA m c) (blk8 (t.val / 8)) := by
  obtain ⟨e0, e1, -, -, -, -⟩ := idx_facts t
  have hN : t.val < 64 := lt_of_lt_of_eq t.isLt N64
  funext y
  show V m c main_arg0 (((cfg0.win 0).blk t).view.emb y) = m ((c : Thread nD τ).loc main_arg0) _
  refine congrArg (m ((c : Thread nD τ).loc main_arg0)) (funext fun a => Fin.ext ?_)
  match a with
  | ⟨0, _⟩ => show win0_0.index t (0 : Fin 2) * 1024 + 1 * (y 0).val = 1024 * (t.val / 8 % 8) + (y 0).val; omega
  | ⟨1, _⟩ => show win0_0.index t (1 : Fin 2) * 128 + 1 * (y 1).val = (y 1).val; omega

theorem blk1_eq (c : Dev nD) (t : Fin cfg0.N) : blk1 m c t = rows (tgtA m c) (blk8 (t.val / 8)) := by
  obtain ⟨-, -, e0, e1, -, -⟩ := idx_facts t
  have hN : t.val < 64 := lt_of_lt_of_eq t.isLt N64
  funext y
  show V m c main_arg1 (((cfg0.win 1).blk t).view.emb y) = m ((c : Thread nD τ).loc main_arg1) _
  refine congrArg (m ((c : Thread nD τ).loc main_arg1)) (funext fun a => Fin.ext ?_)
  match a with
  | ⟨0, _⟩ => show win0_1.index t (0 : Fin 2) * 1024 + 1 * (y 0).val = 1024 * (t.val / 8 % 8) + (y 0).val; omega
  | ⟨1, _⟩ => show win0_1.index t (1 : Fin 2) * 128 + 1 * (y 1).val = (y 1).val; omega

theorem blk2_eq (c : Dev nD) (t : Fin cfg0.N) : blk2 m c t = rows (tgtA m c) (blk8 t.val) := by
  obtain ⟨-, -, -, -, e0, e1⟩ := idx_facts t
  funext y
  show V m c main_arg1 (((cfg0.win 2).blk t).view.emb y) = m ((c : Thread nD τ).loc main_arg1) _
  refine congrArg (m ((c : Thread nD τ).loc main_arg1)) (funext fun a => Fin.ext ?_)
  match a with
  | ⟨0, _⟩ => show win0_2.index t (0 : Fin 2) * 1024 + 1 * (y 0).val = 1024 * (t.val % 8) + (y 0).val; omega
  | ⟨1, _⟩ => show win0_2.index t (1 : Fin 2) * 128 + 1 * (y 1).val = (y 1).val; omega

/-- The refill's payload on row blocks `p` of source and target is row block `p` of the log-ratio. -/
theorem pay1_rows (s t : Cert.Spec.SA.Idx → EReal) (p : Fin 8) :
    k0_pay1 (F := Ideal) (rows s p) (rows t p) = rows (lr s t) p := by
  funext y
  rw [Cert.KernelIdeal.Pay.pay1_eq]
  rfl

/-- The accumulator's payload: the old value plus the tile. -/
theorem pay3_fun (a b : Vec Ideal S1024x128 .f32) (o : Vec Ideal S1x1 .f32) (x : EReal) (ho : o = fun _ => x) :
    k0_pay3 (F := Ideal) a b o = fun _ => x + tile a b := by
  funext y
  rw [Cert.KernelIdeal.Pay.pay3_eq, ho]

/-- After point `n`: the accumulator is the sum of the tiles of points `0 … n`, the scratch the log-ratio of row
    block `n / 8`. -/
theorem outs_inv (c : Dev nD) : ∀ (n : ℕ) (hn : n < cfg0.N),
    (outsAt m c n hn).1 = (fun _ => ∑ p ∈ Finset.range (n + 1), tileAt (srcA m c) (tgtA m c) p)
    ∧ (outsAt m c n hn).2 = rows (lr (srcA m c) (tgtA m c)) (blk8 (n / 8)) := by
  intro n
  induction n with
  | zero =>
    intro hn
    have h := outsAt_first m c ⟨0, hn⟩ rfl
    have e01 : k0_pay1 (F := Ideal) (blk0 m c ⟨0, hn⟩) (blk1 m c ⟨0, hn⟩) = rows (lr (srcA m c) (tgtA m c)) (blk8 (0 / 8)) := by
      rw [blk0_eq, blk1_eq]; exact pay1_rows _ _ _
    constructor
    · rw [show (outsAt m c 0 hn).1 = _ from congrArg Prod.fst h, accFirst_eq]
      show k0_pay3 (F := Ideal) (k0_pay1 (blk0 m c ⟨0, hn⟩) (blk1 m c ⟨0, hn⟩)) (blk2 m c ⟨0, hn⟩) (k0_pay2 (F := Ideal)) = _
      rw [e01, blk2_eq, pay3_fun _ _ _ 0 (funext fun y => Cert.KernelIdeal.Pay.pay2_eq y)]
      funext _
      rw [Finset.sum_range_one, zero_add]
      rfl
    · rw [show (outsAt m c 0 hn).2 = _ from congrArg Prod.snd h, scrFirst_eq]
      exact e01
  | succ n ih =>
    intro hn
    obtain ⟨ih1, ih2⟩ := ih (Nat.lt_of_succ_lt hn)
    have hN : n + 1 < 64 := lt_of_lt_of_eq hn N64
    by_cases h0 : (n + 1) % 8 = 0
    · have h := outsAt_refill m c ⟨n + 1, hn⟩ (Nat.succ_ne_zero n) h0
      have e01 : k0_pay1 (F := Ideal) (blk0 m c ⟨n + 1, hn⟩) (blk1 m c ⟨n + 1, hn⟩) = rows (lr (srcA m c) (tgtA m c)) (blk8 ((n + 1) / 8)) := by
        rw [blk0_eq, blk1_eq]; exact pay1_rows _ _ _
      constructor
      · rw [show (outsAt m c (n + 1) hn).1 = _ from congrArg Prod.fst h, accRefill_eq]
        show k0_pay3 (F := Ideal) (k0_pay1 (blk0 m c ⟨n + 1, hn⟩) (blk1 m c ⟨n + 1, hn⟩)) (blk2 m c ⟨n + 1, hn⟩) (outsAt m c n (Nat.lt_of_succ_lt hn)).1 = _
        rw [e01, blk2_eq, pay3_fun _ _ _ _ ih1]
        funext _
        rw [Finset.sum_range_succ _ (n + 1)]
        rfl
      · rw [show (outsAt m c (n + 1) hn).2 = _ from congrArg Prod.snd h, scrRefill_eq]
        exact e01
    · have h := outsAt_rest m c ⟨n + 1, hn⟩ (Nat.succ_ne_zero n) h0
      have hb : blk8 (n / 8) = blk8 ((n + 1) / 8) := by
        unfold blk8; congr 1; omega
      constructor
      · rw [show (outsAt m c (n + 1) hn).1 = _ from congrArg Prod.fst h, accRest_eq]
        show k0_pay3 (F := Ideal) (outsAt m c n (Nat.lt_of_succ_lt hn)).2 (blk2 m c ⟨n + 1, hn⟩) (outsAt m c n (Nat.lt_of_succ_lt hn)).1 = _
        rw [ih2, hb, blk2_eq, pay3_fun _ _ _ _ ih1]
        funext _
        rw [Finset.sum_range_succ _ (n + 1)]
        rfl
      · rw [show (outsAt m c (n + 1) hn).2 = _ from congrArg Prod.snd h]
        show (outsAt m c n (Nat.lt_of_succ_lt hn)).2 = _
        rw [ih2, hb]

theorem h63 : 63 < cfg0.N := by rw [N64]; norm_num

/-- What the last point writes back is the accumulator's last contents read through the one block. -/
theorem flushed3_eq (c : Dev nD) (t : Fin cfg0.N) (hf : (cfg0.win 3).flush t = true) :
    (dats m 0 c).flushed 3 t = ((cfg0.win 3).blk t).view.read (Elt Ideal) ((outsAt m c 63 h63).1) := by
  have ht : t.val = 63 := by
    have := (flush0_3 t).mp hf
    have hN : t.val < 64 := lt_of_lt_of_eq t.isLt N64
    omega
  have e : ∀ (n : ℕ) (hn : n < cfg0.N), n = 63 → outsAt m c n hn = outsAt m c 63 h63 := by
    intro n hn h; subst h; rfl
  show (cfg0.win 3).cut (grid0.coords t) ((dats m 0 c).after 3 t) = _
  rw [after3, e _ _ ht]
  funext y
  show (outsAt m c 63 h63).1 y = (outsAt m c 63 h63).1 (((cfg0.win 3).blk t).view.emb y)
  refine congrArg (outsAt m c 63 h63).1 (funext fun a => Fin.ext ?_)
  match a with
  | ⟨0, _⟩ =>
    show (y 0).val = win0_3.index t (0 : Fin 2) * 1 + 1 * (y 0).val
    have : win0_3.index t (0 : Fin 2) = 0 := rfl
    omega
  | ⟨1, _⟩ =>
    show (y 1).val = win0_3.index t (1 : Fin 2) * 1 + 1 * (y 1).val
    have : win0_3.index t (1 : Fin 2) = 0 := rfl
    omega

/-- The one block is the whole 1 × 1 array. -/
theorem mem_blk3 (t : Fin cfg0.N) (i : S1x1.Idx) : i ∈ ((cfg0.win 3).blk t).view.set := by
  show i ∈ ((View.whole main_v0).slice (win0_3.rect t)).set
  rw [View.set_slice_whole, Rect.mem_set_unit]
  intro a
  have hidx : win0_3.index t a = 0 := by fin_cases a <;> rfl
  show win0_3.index t a * S1x1.size a ≤ (i a).val ∧ (i a).val < win0_3.index t a * S1x1.size a + S1x1.size a
  rw [hidx, Nat.zero_mul, Nat.zero_add]
  exact ⟨Nat.zero_le _, (i a).isLt⟩

/-- The 1 × 1 result array after the run: the accumulator's last contents. -/
theorem final_v0 (c : Dev nD) :
    (dats m 0 c).arrAt 3 cfg0.N = (outsAt m c 63 h63).1 :=
  (dats m 0 c).arrAt_eq_of_cover 3 _ (fun t hf => flushed3_eq m c t hf)
    (fun i => ⟨⟨63, h63⟩, (flush0_3 _).mpr (by norm_num), mem_blk3 _ i⟩)

/-- The five host operations on the exit contents: the specification's finish of the accumulator's entry. -/
theorem tail_val (c : Dev nD) (x : EReal) (hx : (dats m 0 c).arrAt 3 cfg0.N = fun _ => x) :
    StableHlo.after hostOps1 (Wexit m c) (Proc.devRef .tc main_v3) = finish x := by
  have hW : Wexit m c (Proc.devRef .tc main_v0) = fun _ => x := (Wexit_v0 m c).trans hx
  have h : StableHlo.after hostOps1 (Wexit m c) (Proc.devRef .tc main_v3)
      = addf (F := Ideal) (constant S_ .f32 0x38D1B717#32)
          (Host.divf (F := Ideal) (shapeCast S_ (Wexit m c (Proc.devRef .tc main_v0)) shapeCasts_S1x1_S_) (constant S_ .f32 0x4C800000#32)) := by
    after_results
    rfl
  rw [h, hW]
  rfl

/-- THE KERNEL'S VALUE: the scalar result is the loss of the two argument arrays. -/
theorem kernel_val (c : Dev nD) :
    StableHlo.after hostOps1 (Wexit m c) (Proc.devRef .tc main_v3) = G (srcA m c) (tgtA m c) := by
  have hacc := (outs_inv m c 63 h63).1
  rw [tail_val m c _ ((final_v0 m c).trans hacc)]
  unfold G
  rw [← Cert.Spec.tiles_total]

/-- The run, re-posted at the specification. -/
theorem run_G : θ_run defs (onTc (τ := τ) (main (F := Ideal))) ⟨m, fun _ => 0, ρ⟩ (fun r => ∀ c : Dev nD,
      r.2.mem ((c.tc : Thread nD τ).loc main_v3) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (kernel_val m c), (h c).2⟩) (run_main m ρ)

end Cert.KernelIdeal.Hand

end
-- ==== Proof.RefValue.lean ====
import proofs.«135756_j53927609369065_1_alg».proof.Defs
import proofs.«135756_j53927609369065_1_alg».proof.Proof.Gen.ReferenceIdeal.Run
import proofs.«135756_j53927609369065_1_alg».proof.Proof.Gen.ReferenceIdeal.Read
import proofs.«135756_j53927609369065_1_alg».proof.Proof.Spec
import Idealize.ShloMosaic.Lib.ValueIdx
import Idealize.ShloMosaic.PureOps.Ideal
import Idealize.ShloMosaic.PureOps.Ideal.Laws

/-
  The reference computes the specification.

  The reference's result is `1e-4 + (0 + ∑ over all index pairs of |-(lr · t)|) / 2^26`, where the sum runs over the
  rank-2 index set of the 8192 × 8192 matrix of inner products. That index set is the product of its two coordinate
  ranges, so the sum is the double sum over rows `i` and `j`; the zero the reduction starts from is dropped; and at
  an index pair `(i, j)` the matrix entry is the cell of rows `i` and `j`: the contraction reads the left operand at
  `(i, k)` and the right at `(j, k)`, the left operand is the log-ratio, negation is negation and the absolute value is
  the larger of a number and its negative. The last two host operations (the quotient by 2^26 and the sum with 1e-4's
  binary value) are the same function on both sides and are never opened.
-/

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.ReferenceIdeal.Read

/-- The contraction's left index at the pair `(i, j)` and position `k` is `(i, k)`. -/
theorem lidx_ix2 (i j : Fin 8192) (k : Fin 128) : lidx_main_v3 (ix2 i j) k = ix2 i k :=
  funext fun a => Fin.ext (by match a with | ⟨0, _⟩ => rfl | ⟨1, _⟩ => rfl)

/-- The contraction's right index at the pair `(i, j)` and position `k` is `(j, k)`. -/
theorem ridx_ix2 (i j : Fin 8192) (k : Fin 128) : ridx_main_v3 (ix2 i j) k = ix2 j k :=
  funext fun a => Fin.ext (by match a with | ⟨0, _⟩ => rfl | ⟨1, _⟩ => rfl)

/-- The difference of logarithms at an entry is the log-ratio. -/
theorem v2_lr (x0 x1 : (⟨S8192x128, .f32⟩ : BufTy).Contents (Elt Ideal)) (y : S8192x128.Idx) :
    val_main_v2 (F := Ideal) x0 x1 y = Cert.Spec.lr x0 x1 y := by
  rw [val_main_v2_apply, val_main_v0_apply, val_main_v1_apply, Ideal.subf_def, Ideal.hostUnary_log_def,
    Ideal.hostUnary_log_def]
  rfl

/-- The inner product the reference forms at the pair `(i, j)`: row `i` of the log-ratio against row `j` of the target. -/
theorem v3_ix2 (x0 x1 : (⟨S8192x128, .f32⟩ : BufTy).Contents (Elt Ideal)) (i j : Fin 8192) :
    val_main_v3 (F := Ideal) x0 x1 (ix2 i j) = ∑ d : Fin 128, Cert.Spec.lr x0 x1 (ix2 i d) * x1 (ix2 j d) := by
  rw [val_main_v3_apply]
  refine Finset.sum_congr rfl fun k _ => ?_
  rw [lidx_ix2, ridx_ix2, v2_lr]

/-- The absolute value of the negated inner product at the pair `(i, j)` is the cell of rows `i` and `j`. -/
theorem v5_cell (x0 x1 : (⟨S8192x128, .f32⟩ : BufTy).Contents (Elt Ideal)) (i j : Fin 8192) :
    val_main_v5 (F := Ideal) x0 x1 (ix2 i j) = Cert.Spec.cell (Cert.Spec.lr x0 x1) x1 i j := by
  rw [val_main_v5_apply, val_main_v4_apply, v3_ix2, Ideal.hostAbsf_def, Ideal.absf_def, Ideal.hostNegf_def,
    Ideal.negf_def]
  rfl

/-- The reduction's result: the zero it starts from plus the sum over all index pairs is the total of the cells. -/
theorem v6_total (x0 x1 : (⟨S8192x128, .f32⟩ : BufTy).Contents (Elt Ideal)) :
    val_main_v6 (F := Ideal) x0 x1 = fun _ => Cert.Spec.total x0 x1 := by
  funext i
  rw [val_main_v6_apply, val_main_cst_apply, Ideal.ofBits_def, Ideal.ofBits_zero_f32, zero_add, sum_idx2]
  unfold Cert.Spec.total
  exact Finset.sum_congr rfl fun a _ => Finset.sum_congr rfl fun b _ => v5_cell x0 x1 a b

/-- the reference's result term is the specification -/
theorem result_eq (x0 x1 : (⟨S8192x128, .f32⟩ : BufTy).Contents (Elt Ideal)) :
    Cert.ReferenceIdeal.Read.val_main_v8 (F := Ideal) x0 x1 = Cert.Spec.G x0 x1 :=
  congrArg (fun X : S_.Idx → EReal => addf (F := Ideal) (constant S_ .f32 0x38D1B717#32)
    (Host.divf (F := Ideal) X (constant S_ .f32 0x4C800000#32))) (v6_total x0 x1)

/-- the reference's run ends at the specification of its arguments, the arguments unchanged -/
theorem run_G (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v8) = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v8_eq (F := Ideal) _ _).trans (result_eq _ _)), (h c).2⟩)
    (Cert.ReferenceIdeal.Value.run (F := Ideal) m ρ)

end Cert.ReferenceIdeal.RefValue

end
-- ==== Proof.lean ====
/-
  The certificate of the pairwise log-ratio loss: `1e-4 + (∑ over row pairs (i, j) of |-(∑ d, (log s i d - log t i d) · t j d)|) / 2^26`
  for two 8192 × 128 arrays, computed by a kernel that walks the 8192 × 8192 pairs in 8 × 8 tiles — keeping the current
  row block's log-ratio in a scratch and adding each tile's sum into a 1 × 1 accumulator — against one matrix product
  and one sum on the host.

  Frames. The kernel is handed the target array through two windows; the region is entered with that array's share
  split in two and left with it joined (Proof/K/Launch.lean at the word level, Proof/KI/Launch.lean at the extended
  reals: one text at two instances). The body obligation is by cases on the grid point (first point; a later point of
  column 0; any other), each case one symbolic run of the body. The reference's frame is its run with the result dropped.

  Values (at the extended reals). After point n the accumulator is the sum of the tiles 0 … n (induction on n over the
  body's three payloads read as sums); the 64 tiles add up to the sum over all pairs by reindexing 8192 = 8 · 1024 on
  both axes — addition of extended reals is commutative and associative, and nothing else is used, so finiteness of the
  inputs is never needed; the last two host operations are the same on both sides. The idealization rewrote nothing,
  so `preserves` is `True`.
-/
import proofs.«135756_j53927609369065_1_alg».proof.Defs
import proofs.«135756_j53927609369065_1_alg».proof.Proof.Gen.Kernel
import proofs.«135756_j53927609369065_1_alg».proof.Proof.Gen.KernelIdeal
import proofs.«135756_j53927609369065_1_alg».proof.Proof.Gen.ReferenceIdeal
import proofs.«135756_j53927609369065_1_alg».proof.Proof.Gen.Pre_finite_inputs
import proofs.«135756_j53927609369065_1_alg».proof.Proof.K.Launch
import proofs.«135756_j53927609369065_1_alg».proof.Proof.KI.Value
import proofs.«135756_j53927609369065_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run (Cert.Kernel.defs (F := Bits)) _ _).mono (fun _ h c => (h c).2) (Cert.Kernel.Hand.run_main (F := Bits) m ρ)

theorem frame_ki : Cert.frame_KernelIdeal := fun m ρ _ =>
  (θ_run (Cert.KernelIdeal.defs (F := Ideal)) _ _).mono (fun _ h c => (h c).2) (Cert.KernelIdeal.Hand.run_main (F := Ideal) m ρ)

theorem frame_ri : Cert.frame_ReferenceIdeal := fun m ρ _ =>
  (θ_run (Cert.ReferenceIdeal.defs (F := Ideal)) _ _).mono (fun _ h c => (h c).2) (Cert.ReferenceIdeal.RefValue.run_G m ρ)

/-- Both idealized programs end with the scalar result at the loss of the argument arrays, which agree. -/
theorem algebraic : Cert.algebraic_KernelIdeal_ReferenceIdeal := by
  intro m ρ m' ρ' _ hagree
  refine ⟨_, Cert.KernelIdeal.Hand.run_G m ρ, ?_⟩
  refine (θ_run (Cert.ReferenceIdeal.defs (F := Ideal)) _ _).mono (fun _ h c => ⟨(h c).1.trans ?_, (h c).2⟩)
    (Cert.ReferenceIdeal.RefValue.run_G m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
